-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x32x32x128 : Shape := ⟨4, ![64, 32, 32, 128]⟩
abbrev S256x32x32x128 : Shape := ⟨4, ![256, 32, 32, 128]⟩
abbrev S64 : Shape := ⟨1, ![64]⟩
abbrev S_ : Shape := ⟨0, ![]⟩

class Facts : Prop where
  bcast_S_S64x32x32x128 : S_.BroadcastsInDim S64x32x32x128 (![] : Fin 0 → Fin S64x32x32x128.rank)
  reducesTo_S64x32x32x128_S_d0_1_2_3 : S64x32x32x128.ReducesTo [0, 1, 2, 3] S_
  h_S_ : 0 < S_.numel
  bcast_S_S256x32x32x128 : S_.BroadcastsInDim S256x32x32x128 (![] : Fin 0 → Fin S256x32x32x128.rank)
  reducesTo_S256x32x32x128_S_d0_1_2_3 : S256x32x32x128.ReducesTo [0, 1, 2, 3] S_
  bcast_S_S64 : S_.BroadcastsInDim S64 (![] : Fin 0 → Fin S64.rank)
  reducesTo_S64_S_d0 : S64.ReducesTo [0] S_

variable [Facts]

def fn_part1 {F : FTy → Type} [FloatOps F] (main_arg3 : IVec S64 32) (main_v13 : IVec S_ 1) (main_v15 : IVec S64 1) (main_c_5 : IVec S_ 1) : IVec S_ 1 :=
  let main_v16 : IVec S_ 1 := (fun x v => Host.reduce IntOp.andi x v reducesTo_S64_S_d0 h_S_) main_v15 main_c_5
  let main_v17 : IVec S_ 1 := andi main_v13 main_v16
  let main_c_6 : IVec S_ 32 := constantI S_ 32 256#32
  let main_v18 : IVec S64 32 := broadcastInDim S64 ![] bcast_S_S64 main_c_6
  let main_v19 : IVec S64 1 := cmpi .slt main_arg3 main_v18
  let main_c_7 : IVec S_ 1 := constantI S_ 1 1#1
  let main_v20 : IVec S_ 1 := (fun x v => Host.reduce IntOp.andi x v reducesTo_S64_S_d0 h_S_) main_v19 main_c_7
  let main_v21 : IVec S_ 1 := andi main_v17 main_v20
  main_v21

def fn {F : FTy → Type} [FloatOps F] (main_arg0 : FVec F S64x32x32x128 .f32) (main_arg1 : FVec F S256x32x32x128 .f32) (main_arg2 : FVec F S256x32x32x128 .f32) (main_arg3 : IVec S64 32) : IVec S_ 1 :=
  let main_v0 : FVec F S64x32x32x128 .f32 := Host.absf main_arg0
  let main_cst : FVec F S_ .f32 := constant S_ .f32 0x7F800000#32
  let main_v1 : FVec F S64x32x32x128 .f32 := broadcastInDim S64x32x32x128 ![] bcast_S_S64x32x32x128 main_cst
  let main_v2 : IVec S64x32x32x128 1 := cmpf .olt main_v0 main_v1
  let main_c : IVec S_ 1 := constantI S_ 1 1#1
  let main_v3 : IVec S_ 1 := (fun x v => Host.reduce IntOp.andi x v reducesTo_S64x32x32x128_S_d0_1_2_3 h_S_) main_v2 main_c
  let main_v4 : FVec F S256x32x32x128 .f32 := Host.absf main_arg1
  let main_cst_0 : FVec F S_ .f32 := constant S_ .f32 0x7F800000#32
  let main_v5 : FVec F S256x32x32x128 .f32 := broadcastInDim S256x32x32x128 ![] bcast_S_S256x32x32x128 main_cst_0
  let main_v6 : IVec S256x32x32x128 1 := cmpf .olt main_v4 main_v5
  let main_c_1 : IVec S_ 1 := constantI S_ 1 1#1
  let main_v7 : IVec S_ 1 := (fun x v => Host.reduce IntOp.andi x v reducesTo_S256x32x32x128_S_d0_1_2_3 h_S_) main_v6 main_c_1
  let main_v8 : IVec S_ 1 := andi main_v3 main_v7
  let main_v9 : FVec F S256x32x32x128 .f32 := Host.absf main_arg2
  let main_cst_2 : FVec F S_ .f32 := constant S_ .f32 0x7F800000#32
  let main_v10 : FVec F S256x32x32x128 .f32 := broadcastInDim S256x32x32x128 ![] bcast_S_S256x32x32x128 main_cst_2
  let main_v11 : IVec S256x32x32x128 1 := cmpf .olt main_v9 main_v10
  let main_c_3 : IVec S_ 1 := constantI S_ 1 1#1
  let main_v12 : IVec S_ 1 := (fun x v => Host.reduce IntOp.andi x v reducesTo_S256x32x32x128_S_d0_1_2_3 h_S_) main_v11 main_c_3
  let main_v13 : IVec S_ 1 := andi main_v8 main_v12
  let main_c_4 : IVec S_ 32 := constantI S_ 32 0#32
  let main_v14 : IVec S64 32 := broadcastInDim S64 ![] bcast_S_S64 main_c_4
  let main_v15 : IVec S64 1 := cmpi .sge main_arg3 main_v14
  let main_c_5 : IVec S_ 1 := constantI S_ 1 1#1
  fn_part1 (F := F) main_arg3 main_v13 main_v15 main_c_5
-- ==== Kernel.lean ====
abbrev S64x32x32x128 : Shape := ⟨4, ![64, 32, 32, 128]⟩
abbrev S256x32x32x128 : Shape := ⟨4, ![256, 32, 32, 128]⟩
abbrev S64 : Shape := ⟨1, ![64]⟩
abbrev S_ : Shape := ⟨0, ![]⟩
abbrev S8x32x32x128 : Shape := ⟨4, ![8, 32, 32, 128]⟩
abbrev S8 : Shape := ⟨1, ![8]⟩
abbrev S1 : Shape := ⟨1, ![1]⟩
abbrev S1x32x32x128 : Shape := ⟨4, ![1, 32, 32, 128]⟩
abbrev S32x32x128 : Shape := ⟨3, ![32, 32, 128]⟩

abbrev nBuf : Space → Nat
  | .hbm => 12
  | .vmem => 6
  | .smem => 1
  | _ => 0

abbrev bufTy : (tb : Table) → Fin (tcTables nBuf tb) → BufTy
  | .hbm, ⟨0, _⟩ => ⟨S64x32x32x128, .f32⟩
  | .hbm, ⟨1, _⟩ => ⟨S256x32x32x128, .f32⟩
  | .hbm, ⟨2, _⟩ => ⟨S256x32x32x128, .f32⟩
  | .hbm, ⟨3, _⟩ => ⟨S64, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S64, .i32⟩
  | .hbm, ⟨8, _⟩ => ⟨S64, .i32⟩
  | .hbm, ⟨9, _⟩ => ⟨S_, .i32⟩
  | .hbm, ⟨10, _⟩ => ⟨S64, .i32⟩
  | .hbm, ⟨11, _⟩ => ⟨S64x32x32x128, .f32⟩
  | .local _ .vmem, ⟨0, _⟩ => ⟨S8x32x32x128, .f32⟩
  | .local _ .vmem, ⟨1, _⟩ => ⟨S8x32x32x128, .f32⟩
  | .local _ .vmem, ⟨2, _⟩ => ⟨S8x32x32x128, .f32⟩
  | .local _ .vmem, ⟨3, _⟩ => ⟨S8x32x32x128, .f32⟩
  | .local _ .vmem, ⟨4, _⟩ => ⟨S8x32x32x128, .f32⟩
  | .local _ .vmem, ⟨5, _⟩ => ⟨S8x32x32x128, .f32⟩
  | .local _ .smem, ⟨0, _⟩ => ⟨S64, .i32⟩
  | _, _ => ⟨S64x32x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_c_0 : Ref sig .tc := ⟨.hbm, 5, rfl⟩
abbrev main_call0_call0_v0 : Ref sig .tc := ⟨.hbm, 6, rfl⟩
abbrev main_call0_call0_v1 : Ref sig .tc := ⟨.hbm, 7, rfl⟩
abbrev main_call0_call0_v2 : Ref sig .tc := ⟨.hbm, 8, rfl⟩
abbrev main_call0_call0_v3 : Ref sig .tc := ⟨.hbm, 9, rfl⟩
abbrev main_call0_call0_v4 : Ref sig .tc := ⟨.hbm, 10, rfl⟩
abbrev main_v0 : Ref sig .tc := ⟨.hbm, 11, rfl⟩
abbrev main_call0_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_call0_v0.idx], fun | 0 => main_call0_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k0_off2 (v3 : BitVec 32) : Fin 4 → Nat :=
  let c0_i32_5 : BitVec 32 := 0#32
  let c0_i32_6 : BitVec 32 := 0#32
  let c0_i32_7 : BitVec 32 := 0#32
  ![v3.toNat, 0, 0, 0]

def k0_off3 (i : grid0.Coords) : Fin 1 → Nat :=
  let arg0 : BitVec 32 := BitVec.ofNat 32 (i 0).val
  let c8_i32_16 : BitVec 32 := 8#32
  let v16 : BitVec 32 := Scalar.muli arg0 c8_i32_16
  let c1_i32 : BitVec 32 := 1#32
  let v17 : BitVec 32 := Scalar.addi v16 c1_i32
  let v18 : Index := Scalar.indexCast v17
  ![v18.toNat]
def k0_off4 (v19 : BitVec 32) : Fin 4 → Nat :=
  let c0_i32_22 : BitVec 32 := 0#32
  let c0_i32_23 : BitVec 32 := 0#32
  let c0_i32_24 : BitVec 32 := 0#32
  ![v19.toNat, 0, 0, 0]

def k0_off5 (i : grid0.Coords) : Fin 1 → Nat :=
  let arg0 : BitVec 32 := BitVec.ofNat 32 (i 0).val
  let c8_i32_33 : BitVec 32 := 8#32
  let v32 : BitVec 32 := Scalar.muli arg0 c8_i32_33
  let c2_i32 : BitVec 32 := 2#32
  let v33 : BitVec 32 := Scalar.addi v32 c2_i32
  let v34 : Index := Scalar.indexCast v33
  ![v34.toNat]
def k0_off6 (v35 : BitVec 32) : Fin 4 → Nat :=
  let c0_i32_39 : BitVec 32 := 0#32
  let c0_i32_40 : BitVec 32 := 0#32
  let c0_i32_41 : BitVec 32 := 0#32
  ![v35.toNat, 0, 0, 0]

def k0_off7 (i : grid0.Coords) : Fin 1 → Nat :=
  let arg0 : BitVec 32 := BitVec.ofNat 32 (i 0).val
  let c8_i32_50 : BitVec 32 := 8#32
  let v48 : BitVec 32 := Scalar.muli arg0 c8_i32_50
  let c3_i32 : BitVec 32 := 3#32
  let v49 : BitVec 32 := Scalar.addi v48 c3_i32
  let v50 : Index := Scalar.indexCast v49
  ![v50.toNat]
def k0_off8 (v51 : BitVec 32) : Fin 4 → Nat :=
  let c0_i32_56 : BitVec 32 := 0#32
  let c0_i32_57 : BitVec 32 := 0#32
  let c0_i32_58 : BitVec 32 := 0#32
  ![v51.toNat, 0, 0, 0]

def k0_off9 (i : grid0.Coords) : Fin 1 → Nat :=
  let arg0 : BitVec 32 := BitVec.ofNat 32 (i 0).val
  let c8_i32_67 : BitVec 32 := 8#32
  let v64 : BitVec 32 := Scalar.muli arg0 c8_i32_67
  let c4_i32 : BitVec 32 := 4#32
  let v65 : BitVec 32 := Scalar.addi v64 c4_i32
  let v66 : Index := Scalar.indexCast v65
  ![v66.toNat]
def k0_off10 (v67 : BitVec 32) : Fin 4 → Nat :=
  let c0_i32_73 : BitVec 32 := 0#32
  let c0_i32_74 : BitVec 32 := 0#32
  let c0_i32_75 : BitVec 32 := 0#32
  ![v67.toNat, 0, 0, 0]

def k0_off11 (i : grid0.Coords) : Fin 1 → Nat :=
  let arg0 : BitVec 32 := BitVec.ofNat 32 (i 0).val
  let c8_i32_84 : BitVec 32 := 8#32
  let v80 : BitVec 32 := Scalar.muli arg0 c8_i32_84
  let c5_i32 : BitVec 32 := 5#32
  let v81 : BitVec 32 := Scalar.addi v80 c5_i32
  let v82 : Index := Scalar.indexCast v81
  ![v82.toNat]
def k0_off12 (v83 : BitVec 32) : Fin 4 → Nat :=
  let c0_i32_90 : BitVec 32 := 0#32
  let c0_i32_91 : BitVec 32 := 0#32
  let c0_i32_92 : BitVec 32 := 0#32
  ![v83.toNat, 0, 0, 0]

def k0_off13 (i : grid0.Coords) : Fin 1 → Nat :=
  let arg0 : BitVec 32 := BitVec.ofNat 32 (i 0).val
  let c8_i32_101 : BitVec 32 := 8#32
  let v96 : BitVec 32 := Scalar.muli arg0 c8_i32_101
  let c6_i32 : BitVec 32 := 6#32
  let v97 : BitVec 32 := Scalar.addi v96 c6_i32
  let v98 : Index := Scalar.indexCast v97
  ![v98.toNat]
def k0_off14 (v99 : BitVec 32) : Fin 4 → Nat :=
  let c0_i32_107 : BitVec 32 := 0#32
  let c0_i32_108 : BitVec 32 := 0#32
  let c0_i32_109 : BitVec 32 := 0#32
  ![v99.toNat, 0, 0, 0]

def k0_off15 (i : grid0.Coords) : Fin 1 → Nat :=
  let arg0 : BitVec 32 := BitVec.ofNat 32 (i 0).val
  let c8_i32_118 : BitVec 32 := 8#32
  let v112 : BitVec 32 := Scalar.muli arg0 c8_i32_118
  let c7_i32 : BitVec 32 := 7#32
  let v113 : BitVec 32 := Scalar.addi v112 c7_i32
  let v114 : Index := Scalar.indexCast v113
  ![v114.toNat]
def k0_off16 (v115 : BitVec 32) : Fin 4 → Nat :=
  let c0_i32_124 : BitVec 32 := 0#32
  let c0_i32_125 : BitVec 32 := 0#32
  let c0_i32_126 : BitVec 32 := 0#32
  ![v115.toNat, 0, 0, 0]

def k0_chk8 (v115 : BitVec 32) : Prop :=
  (∀ a, (k0_off16 v115) a + S1x32x32x128.size a ≤ S256x32x32x128.size a)
instance k0_chk8.dec : ∀ (v115 : BitVec 32), Decidable (k0_chk8 v115) := fun v115 => decidable_of_iff' _ (Iff.of_eq (k0_chk8.eq_1 v115))
theorem k0_off16_inb : ∀ (v115 : BitVec 32) (k0_hw8 : k0_chk8 v115), ∀ a, (k0_off16 v115) a + S1x32x32x128.size a ≤ S256x32x32x128.size a := fun v115 k0_hw8 => k0_hw8

def k0_off17 (v3 : BitVec 32) : Fin 4 → Nat :=
  let c0_i32_140 : BitVec 32 := 0#32
  let c0_i32_141 : BitVec 32 := 0#32
  let c0_i32_142 : BitVec 32 := 0#32
  ![v3.toNat, 0, 0, 0]

def k0_chk1 (v3 : BitVec 32) : Prop :=
  (∀ a, (k0_off2 v3) a + S1x32x32x128.size a ≤ S256x32x32x128.size a) ∧
  (∀ a, (k0_off17 v3) a + S1x32x32x128.size a ≤ S256x32x32x128.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S1x32x32x128.size a ≤ S256x32x32x128.size a := fun v3 k0_hw1 => k0_hw1.1
theorem k0_off17_inb : ∀ (v3 : BitVec 32) (k0_hw1 : k0_chk1 v3), ∀ a, (k0_off17 v3) a + S1x32x32x128.size a ≤ S256x32x32x128.size a := fun v3 k0_hw1 => k0_hw1.2

def k0_off18 (v19 : BitVec 32) : Fin 4 → Nat :=
  let c0_i32_156 : BitVec 32 := 0#32
  let c0_i32_157 : BitVec 32 := 0#32
  let c0_i32_158 : BitVec 32 := 0#32
  ![v19.toNat, 0, 0, 0]

def k0_chk2 (v19 : BitVec 32) : Prop :=
  (∀ a, (k0_off4 v19) a + S1x32x32x128.size a ≤ S256x32x32x128.size a) ∧
  (∀ a, (k0_off18 v19) a + S1x32x32x128.size a ≤ S256x32x32x128.size a)
instance k0_chk2.dec : ∀ (v19 : BitVec 32), Decidable (k0_chk2 v19) := fun v19 => decidable_of_iff' _ (Iff.of_eq (k0_chk2.eq_1 v19))
theorem k0_off4_inb : ∀ (v19 : BitVec 32) (k0_hw2 : k0_chk2 v19), ∀ a, (k0_off4 v19) a + S1x32x32x128.size a ≤ S256x32x32x128.size a := fun v19 k0_hw2 => k0_hw2.1
theorem k0_off18_inb : ∀ (v19 : BitVec 32) (k0_hw2 : k0_chk2 v19), ∀ a, (k0_off18 v19) a + S1x32x32x128.size a ≤ S256x32x32x128.size a := fun v19 k0_hw2 => k0_hw2.2

def k0_off19 (v35 : BitVec 32) : Fin 4 → Nat :=
  let c0_i32_172 : BitVec 32 := 0#32
  let c0_i32_173 : BitVec 32 := 0#32
  let c0_i32_174 : BitVec 32 := 0#32
  ![v35.toNat, 0, 0, 0]

def k0_chk3 (v35 : BitVec 32) : Prop :=
  (∀ a, (k0_off6 v35) a + S1x32x32x128.size a ≤ S256x32x32x128.size a) ∧
  (∀ a, (k0_off19 v35) a + S1x32x32x128.size a ≤ S256x32x32x128.size a)
instance k0_chk3.dec : ∀ (v35 : BitVec 32), Decidable (k0_chk3 v35) := fun v35 => decidable_of_iff' _ (Iff.of_eq (k0_chk3.eq_1 v35))
theorem k0_off6_inb : ∀ (v35 : BitVec 32) (k0_hw3 : k0_chk3 v35), ∀ a, (k0_off6 v35) a + S1x32x32x128.size a ≤ S256x32x32x128.size a := fun v35 k0_hw3 => k0_hw3.1
theorem k0_off19_inb : ∀ (v35 : BitVec 32) (k0_hw3 : k0_chk3 v35), ∀ a, (k0_off19 v35) a + S1x32x32x128.size a ≤ S256x32x32x128.size a := fun v35 k0_hw3 => k0_hw3.2

def k0_off20 (v51 : BitVec 32) : Fin 4 → Nat :=
  let c0_i32_188 : BitVec 32 := 0#32
  let c0_i32_189 : BitVec 32 := 0#32
  let c0_i32_190 : BitVec 32 := 0#32
  ![v51.toNat, 0, 0, 0]

def k0_chk4 (v51 : BitVec 32) : Prop :=
  (∀ a, (k0_off8 v51) a + S1x32x32x128.size a ≤ S256x32x32x128.size a) ∧
  (∀ a, (k0_off20 v51) a + S1x32x32x128.size a ≤ S256x32x32x128.size a)
instance k0_chk4.dec : ∀ (v51 : BitVec 32), Decidable (k0_chk4 v51) := fun v51 => decidable_of_iff' _ (Iff.of_eq (k0_chk4.eq_1 v51))
theorem k0_off8_inb : ∀ (v51 : BitVec 32) (k0_hw4 : k0_chk4 v51), ∀ a, (k0_off8 v51) a + S1x32x32x128.size a ≤ S256x32x32x128.size a := fun v51 k0_hw4 => k0_hw4.1
theorem k0_off20_inb : ∀ (v51 : BitVec 32) (k0_hw4 : k0_chk4 v51), ∀ a, (k0_off20 v51) a + S1x32x32x128.size a ≤ S256x32x32x128.size a := fun v51 k0_hw4 => k0_hw4.2

def k0_off21 (v67 : BitVec 32) : Fin 4 → Nat :=
  let c0_i32_204 : BitVec 32 := 0#32
  let c0_i32_205 : BitVec 32 := 0#32
  let c0_i32_206 : BitVec 32 := 0#32
  ![v67.toNat, 0, 0, 0]

def k0_chk5 (v67 : BitVec 32) : Prop :=
  (∀ a, (k0_off10 v67) a + S1x32x32x128.size a ≤ S256x32x32x128.size a) ∧
  (∀ a, (k0_off21 v67) a + S1x32x32x128.size a ≤ S256x32x32x128.size a)
instance k0_chk5.dec : ∀ (v67 : BitVec 32), Decidable (k0_chk5 v67) := fun v67 => decidable_of_iff' _ (Iff.of_eq (k0_chk5.eq_1 v67))
theorem k0_off10_inb : ∀ (v67 : BitVec 32) (k0_hw5 : k0_chk5 v67), ∀ a, (k0_off10 v67) a + S1x32x32x128.size a ≤ S256x32x32x128.size a := fun v67 k0_hw5 => k0_hw5.1
theorem k0_off21_inb : ∀ (v67 : BitVec 32) (k0_hw5 : k0_chk5 v67), ∀ a, (k0_off21 v67) a + S1x32x32x128.size a ≤ S256x32x32x128.size a := fun v67 k0_hw5 => k0_hw5.2

def k0_off22 (v83 : BitVec 32) : Fin 4 → Nat :=
  let c0_i32_220 : BitVec 32 := 0#32
  let c0_i32_221 : BitVec 32 := 0#32
  let c0_i32_222 : BitVec 32 := 0#32
  ![v83.toNat, 0, 0, 0]

def k0_chk6 (v83 : BitVec 32) : Prop :=
  (∀ a, (k0_off12 v83) a + S1x32x32x128.size a ≤ S256x32x32x128.size a) ∧
  (∀ a, (k0_off22 v83) a + S1x32x32x128.size a ≤ S256x32x32x128.size a)
instance k0_chk6.dec : ∀ (v83 : BitVec 32), Decidable (k0_chk6 v83) := fun v83 => decidable_of_iff' _ (Iff.of_eq (k0_chk6.eq_1 v83))
theorem k0_off12_inb : ∀ (v83 : BitVec 32) (k0_hw6 : k0_chk6 v83), ∀ a, (k0_off12 v83) a + S1x32x32x128.size a ≤ S256x32x32x128.size a := fun v83 k0_hw6 => k0_hw6.1
theorem k0_off22_inb : ∀ (v83 : BitVec 32) (k0_hw6 : k0_chk6 v83), ∀ a, (k0_off22 v83) a + S1x32x32x128.size a ≤ S256x32x32x128.size a := fun v83 k0_hw6 => k0_hw6.2

def k0_off23 (v99 : BitVec 32) : Fin 4 → Nat :=
  let c0_i32_236 : BitVec 32 := 0#32
  let c0_i32_237 : BitVec 32 := 0#32
  let c0_i32_238 : BitVec 32 := 0#32
  ![v99.toNat, 0, 0, 0]

def k0_chk7 (v99 : BitVec 32) : Prop :=
  (∀ a, (k0_off14 v99) a + S1x32x32x128.size a ≤ S256x32x32x128.size a) ∧
  (∀ a, (k0_off23 v99) a + S1x32x32x128.size a ≤ S256x32x32x128.size a)
instance k0_chk7.dec : ∀ (v99 : BitVec 32), Decidable (k0_chk7 v99) := fun v99 => decidable_of_iff' _ (Iff.of_eq (k0_chk7.eq_1 v99))
theorem k0_off14_inb : ∀ (v99 : BitVec 32) (k0_hw7 : k0_chk7 v99), ∀ a, (k0_off14 v99) a + S1x32x32x128.size a ≤ S256x32x32x128.size a := fun v99 k0_hw7 => k0_hw7.1
theorem k0_off23_inb : ∀ (v99 : BitVec 32) (k0_hw7 : k0_chk7 v99), ∀ a, (k0_off23 v99) a + S1x32x32x128.size a ≤ S256x32x32x128.size a := fun v99 k0_hw7 => k0_hw7.2

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x32x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  bcast_S_S64 : S_.BroadcastsInDim S64 (![] : Fin 0 → Fin S64.rank)
  numel1_S1 : S1.numel = 1
  inb_S8_S1_0 : ∀ a, (![0] : Fin 1 → Nat) a + S1.size a ≤ S8.size a
  squeezes_S1_S_ : S1.Squeezes S_
  inb_S8x32x32x128_S1x32x32x128_0_0_0_0 : ∀ a, (![0, 0, 0, 0] : Fin 4 → Nat) a + S1x32x32x128.size a ≤ S8x32x32x128.size a
  squeezes_S1x32x32x128_S32x32x128 : S1x32x32x128.Squeezes S32x32x128
  inb_S8_S1_1 : ∀ a, (![1] : Fin 1 → Nat) a + S1.size a ≤ S8.size a
  inb_S8x32x32x128_S1x32x32x128_1_0_0_0 : ∀ a, (![1, 0, 0, 0] : Fin 4 → Nat) a + S1x32x32x128.size a ≤ S8x32x32x128.size a
  inb_S8_S1_2 : ∀ a, (![2] : Fin 1 → Nat) a + S1.size a ≤ S8.size a
  inb_S8x32x32x128_S1x32x32x128_2_0_0_0 : ∀ a, (![2, 0, 0, 0] : Fin 4 → Nat) a + S1x32x32x128.size a ≤ S8x32x32x128.size a
  inb_S8_S1_3 : ∀ a, (![3] : Fin 1 → Nat) a + S1.size a ≤ S8.size a
  inb_S8x32x32x128_S1x32x32x128_3_0_0_0 : ∀ a, (![3, 0, 0, 0] : Fin 4 → Nat) a + S1x32x32x128.size a ≤ S8x32x32x128.size a
  inb_S8_S1_4 : ∀ a, (![4] : Fin 1 → Nat) a + S1.size a ≤ S8.size a
  inb_S8x32x32x128_S1x32x32x128_4_0_0_0 : ∀ a, (![4, 0, 0, 0] : Fin 4 → Nat) a + S1x32x32x128.size a ≤ S8x32x32x128.size a
  inb_S8_S1_5 : ∀ a, (![5] : Fin 1 → Nat) a + S1.size a ≤ S8.size a
  inb_S8x32x32x128_S1x32x32x128_5_0_0_0 : ∀ a, (![5, 0, 0, 0] : Fin 4 → Nat) a + S1x32x32x128.size a ≤ S8x32x32x128.size a
  inb_S8_S1_6 : ∀ a, (![6] : Fin 1 → Nat) a + S1.size a ≤ S8.size a
  inb_S8x32x32x128_S1x32x32x128_6_0_0_0 : ∀ a, (![6, 0, 0, 0] : Fin 4 → Nat) a + S1x32x32x128.size a ≤ S8x32x32x128.size a
  inb_S8_S1_7 : ∀ a, (![7] : Fin 1 → Nat) a + S1.size a ≤ S8.size a
  inb_S8x32x32x128_S1x32x32x128_7_0_0_0 : ∀ a, (![7, 0, 0, 0] : Fin 4 → Nat) a + S1x32x32x128.size a ≤ S8x32x32x128.size a
  inb_S8x32x32x128_S8x32x32x128_0_0_0_0 : ∀ a, (![0, 0, 0, 0] : Fin 4 → Nat) a + S8x32x32x128.size a ≤ S8x32x32x128.size a
  h_S8x32x32x128 : 0 < S8x32x32x128.numel
  hcc0_scratch2 : 4 + S8.numel ≤ 20
  hcc0_scratch3 : 12 + S8.numel ≤ 20
  hrank0 : 0 < grid0.rank
  k0_off1_inb : ∀ i : grid0.Coords, ∀ a, (k0_off1 i) a + S1.size a ≤ S64.size a
  k0_off3_inb : ∀ i : grid0.Coords, ∀ a, (k0_off3 i) a + S1.size a ≤ S64.size a
  k0_off5_inb : ∀ i : grid0.Coords, ∀ a, (k0_off5 i) a + S1.size a ≤ S64.size a
  k0_off7_inb : ∀ i : grid0.Coords, ∀ a, (k0_off7 i) a + S1.size a ≤ S64.size a
  k0_off9_inb : ∀ i : grid0.Coords, ∀ a, (k0_off9 i) a + S1.size a ≤ S64.size a
  k0_off11_inb : ∀ i : grid0.Coords, ∀ a, (k0_off11 i) a + S1.size a ≤ S64.size a
  k0_off13_inb : ∀ i : grid0.Coords, ∀ a, (k0_off13 i) a + S1.size a ≤ S64.size a
  k0_off15_inb : ∀ i : grid0.Coords, ∀ a, (k0_off15 i) a + S1.size a ≤ S64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x32x32x128.size a ≤ S64x32x32x128.size a
  hwx0_0 : ∀ i : grid0.Coords, EltTy.bits .f32 = 32 ∨ (Rect.block (s := S64x32x32x128) S8x32x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_3 i = cc0_transform_3 i'
  hinb0_1 : ∀ (i : grid0.Coords) a, (cc0_transform_3 i a + 1) * S8x32x32x128.size a ≤ S64x32x32x128.size a
  hwx0_1 : ∀ i : grid0.Coords, EltTy.bits .f32 = 32 ∨ (Rect.block (s := S64x32x32x128) S8x32x32x128.size (cc0_transform_3 i) (hinb0_1 i)).WholeWords (EltTy.packing .f32)

variable [Facts₀]

abbrev cc0_scratch2 : DmaSems sig S8 := SemArray.consecutive 4 S8 hcc0_scratch2
abbrev cc0_scratch3 : DmaSems sig S8 := SemArray.consecutive 12 S8 hcc0_scratch3

abbrev spec0_0 : Pipeline.WinSpec sig grid0.rank :=
  Pipeline.WinSpec.ofSpec (Memref.whole main_arg0) S8x32x32x128.size reads0_0 false false 2 stage0_0 sem0_0 nbuf0_0 hstage0_0

abbrev spec0_1 : Pipeline.WinSpec sig grid0.rank :=
  Pipeline.WinSpec.ofSpec (Memref.whole main_v0) S8x32x32x128.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 | 1 => cc0_transform_3 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))

class Facts : Prop extends Facts₀ where
  harr0 : ∀ w, (spec0 w).arr.IsWhole

variable [Facts]
-- ==== ReferenceIdeal.lean ====
abbrev S64x32x32x128 : Shape := ⟨4, ![64, 32, 32, 128]⟩
abbrev S256x32x32x128 : Shape := ⟨4, ![256, 32, 32, 128]⟩
abbrev S64 : Shape := ⟨1, ![64]⟩
abbrev S_ : Shape := ⟨0, ![]⟩
abbrev S64x1 : Shape := ⟨2, ![64, 1]⟩
abbrev S1 : Shape := ⟨1, ![1]⟩
abbrev S1x1 : Shape := ⟨2, ![1, 1]⟩

abbrev nBuf : Space → Nat
  | .hbm => 52
  | .vmem => 0
  | .smem => 0
  | _ => 0

abbrev bufTy : (tb : Table) → Fin (tcTables nBuf tb) → BufTy
  | .hbm, ⟨0, _⟩ => ⟨S64x32x32x128, .f32⟩
  | .hbm, ⟨1, _⟩ => ⟨S256x32x32x128, .f32⟩
  | .hbm, ⟨2, _⟩ => ⟨S256x32x32x128, .f32⟩
  | .hbm, ⟨3, _⟩ => ⟨S64, .i32⟩
  | .hbm, ⟨4, _⟩ => ⟨S_, .i32⟩
  | .hbm, ⟨5, _⟩ => ⟨S64, .i32⟩
  | .hbm, ⟨6, _⟩ => ⟨S64, .i1⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S64, .i32⟩
  | .hbm, ⟨11, _⟩ => ⟨S64x1, .i32⟩
  | .hbm, ⟨12, _⟩ => ⟨S1, .i32⟩
  | .hbm, ⟨13, _⟩ => ⟨S_, .i32⟩
  | .hbm, ⟨14, _⟩ => ⟨S64x1, .i32⟩
  | .hbm, ⟨15, _⟩ => ⟨S64x1, .i1⟩
  | .hbm, ⟨16, _⟩ => ⟨S1x1, .i32⟩
  | .hbm, ⟨17, _⟩ => ⟨S64x1, .i32⟩
  | .hbm, ⟨18, _⟩ => ⟨S64x1, .i1⟩
  | .hbm, ⟨19, _⟩ => ⟨S64x1, .i1⟩
  | .hbm, ⟨20, _⟩ => ⟨S_, .i1⟩
  | .hbm, ⟨21, _⟩ => ⟨S64, .i1⟩
  | .hbm, ⟨22, _⟩ => ⟨S64x32x32x128, .f32⟩
  | .hbm, ⟨23, _⟩ => ⟨S64x32x32x128, .i1⟩
  | .hbm, ⟨24, _⟩ => ⟨S_, .f32⟩
  | .hbm, ⟨25, _⟩ => ⟨S64x32x32x128, .f32⟩
  | .hbm, ⟨26, _⟩ => ⟨S64x32x32x128, .f32⟩
  | .hbm, ⟨27, _⟩ => ⟨S_, .i32⟩
  | .hbm, ⟨28, _⟩ => ⟨S64, .i32⟩
  | .hbm, ⟨29, _⟩ => ⟨S64, .i1⟩
  | .hbm, ⟨30, _⟩ => ⟨S_, .i32⟩
  | .hbm, ⟨31, _⟩ => ⟨S64, .i32⟩
  | .hbm, ⟨32, _⟩ => ⟨S64, .i32⟩
  | .hbm, ⟨33, _⟩ => ⟨S64, .i32⟩
  | .hbm, ⟨34, _⟩ => ⟨S64x1, .i32⟩
  | .hbm, ⟨35, _⟩ => ⟨S1, .i32⟩
  | .hbm, ⟨36, _⟩ => ⟨S_, .i32⟩
  | .hbm, ⟨37, _⟩ => ⟨S64x1, .i32⟩
  | .hbm, ⟨38, _⟩ => ⟨S64x1, .i1⟩
  | .hbm, ⟨39, _⟩ => ⟨S1x1, .i32⟩
  | .hbm, ⟨40, _⟩ => ⟨S64x1, .i32⟩
  | .hbm, ⟨41, _⟩ => ⟨S64x1, .i1⟩
  | .hbm, ⟨42, _⟩ => ⟨S64x1, .i1⟩
  | .hbm, ⟨43, _⟩ => ⟨S_, .i1⟩
  | .hbm, ⟨44, _⟩ => ⟨S64, .i1⟩
  | .hbm, ⟨45, _⟩ => ⟨S64x32x32x128, .f32⟩
  | .hbm, ⟨46, _⟩ => ⟨S64x32x32x128, .i1⟩
  | .hbm, ⟨47, _⟩ => ⟨S_, .f32⟩
  | .hbm, ⟨48, _⟩ => ⟨S64x32x32x128, .f32⟩
  | .hbm, ⟨49, _⟩ => ⟨S64x32x32x128, .f32⟩
  | .hbm, ⟨50, _⟩ => ⟨S64x32x32x128, .f32⟩
  | .hbm, ⟨51, _⟩ => ⟨S64x32x32x128, .f32⟩
  | _, _ => ⟨S64x32x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v1 : Ref sig .tc := ⟨.hbm, 49, rfl⟩
abbrev main_v2 : Ref sig .tc := ⟨.hbm, 50, rfl⟩
abbrev main_v3 : Ref sig .tc := ⟨.hbm, 51, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S_S64x1 : S_.BroadcastsInDim S64x1 (![] : Fin 0 → Fin S64x1.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  reducesTo_S64x1_S64_d1 : S64x1.ReducesTo [1] S64
  h_S_ : 0 < S_.numel
  bcast_S64_S64x32x32x128_0 : S64.BroadcastsInDim S64x32x32x128 (![0] : Fin 1 → Fin S64x32x32x128.rank)
  bcast_S_S64x32x32x128 : S_.BroadcastsInDim S64x32x32x128 (![] : Fin 0 → Fin S64x32x32x128.rank)
  gather_S256x32x32x128_S64x1_S64x32x32x128_123_0_n_n_0_1_13232128_wf : GatherDims.WF S256x32x32x128 S64x1 S64x32x32x128 [1, 2, 3] [0] [] [0] [] 1 ![1, 32, 32, 128]

variable [Facts₀]

def gather_S256x32x32x128_S64x1_S64x32x32x128_123_0_n_n_0_1_13232128 : GatherDims S256x32x32x128 S64x1 S64x32x32x128 where
  offsetDims := [1, 2, 3]
  collapsedSliceDims := [0]
  operandBatchingDims := []
  startIndicesBatchingDims := []
  startIndexMap := [0]
  indexVectorDim := 1
  sliceSizes := ![1, 32, 32, 128]
  wf := gather_S256x32x32x128_S64x1_S64x32x32x128_123_0_n_n_0_1_13232128_wf

class Facts : Prop extends Facts₀ where

variable [Facts]
-- ==== Proof.LibRowStack.lean ====
/-
  A stack of `G` rows `[G, A, B, C]` reached one row at a time: row `g` through the slice of extent `[1, A, B, C]` at
  offset `(g, 0, 0, 0)` with the leading unit axis squeezed away.

  Reading the stack through row `g`'s view at `(a, b, c)` is reading the stack at `(g, a, b, c)`; a write through row
  `g'`'s view is not seen at a place of another row; a write of a whole row through its own view reads back as the payload.
  So after every row has been written once, whatever was written first, the stack read at `(g, a, b, c)` is row `g`'s
  payload at `(a, b, c)`, and what the buffer held before is not seen at all (`read_rows8`, eight rows).
-/
import Idealize.ShloMosaic.Lib.ValueIdx
import Idealize.ShloMosaic.Signature.Memref

noncomputable section

namespace Idealize.ShloMosaic.RowStack

open Idealize.ShloMosaic.ValueIdx (ix3 ix4)

variable {Val : EltTy → Type} {G A B C : ℕ} {e : EltTy}

/-- The stack of rows. -/
abbrev stackShape (G A B C : ℕ) : Shape := ⟨4, ![G, A, B, C]⟩
/-- One row's block of the stack. -/
abbrev memberShape (A B C : ℕ) : Shape := ⟨4, ![1, A, B, C]⟩
/-- One row, its leading unit axis dropped. -/
abbrev rowShape (A B C : ℕ) : Shape := ⟨3, ![A, B, C]⟩

/-- Reading the stack through a one-row slice (at any offset) with the leading axis squeezed away. -/
theorem read_block_squeezed {sig : RefSig} {κ : Kind} {sp : Space} (M : Memref sig κ sp (stackShape G A B C) e) (off : Fin 4 → ℕ)
    (inb : ∀ a, off a + (memberShape A B C).size a ≤ (stackShape G A B C).size a) (hr) (hq : (memberShape A B C).Squeezes (rowShape A B C))
    (f : M.view.ty.Contents Val) (y : (rowShape A B C).Idx) :
    ((M.slice (Rect.unit (s := stackShape G A B C) off (memberShape A B C).size inb) hr).squeeze (rowShape A B C) hq).view.read Val f y
      = M.view.read Val f ((Rect.unit (s := stackShape G A B C) off (memberShape A B C).size inb).emb (Fin.cons ⟨0, Nat.one_pos⟩ y)) := by
  have h1 : ((M.slice (Rect.unit (s := stackShape G A B C) off (memberShape A B C).size inb) hr).squeeze (rowShape A B C) hq).view.read Val f y
      = M.view.read Val f ((Rect.unit (s := stackShape G A B C) off (memberShape A B C).size inb).emb (Shape.reshapeEquiv hq.numel_eq y)) := rfl
  rw [h1, Shape.reshapeEquiv_cons_one]

/-- Row `g`'s view reads the stack at row `g`. -/
theorem read_row {sig : RefSig} {κ : Kind} {sp : Space} (M : Memref sig κ sp (stackShape G A B C) e) (g : Fin G) (off : Fin 4 → ℕ)
    (h : off = ![g.val, 0, 0, 0]) (inb : ∀ a, off a + (memberShape A B C).size a ≤ (stackShape G A B C).size a) (hr)
    (hq : (memberShape A B C).Squeezes (rowShape A B C)) (f : M.view.ty.Contents Val) (a : Fin A) (b : Fin B) (c : Fin C) :
    ((M.slice (Rect.unit (s := stackShape G A B C) off (memberShape A B C).size inb) hr).squeeze (rowShape A B C) hq).view.read Val f (ix3 a b c)
      = M.view.read Val f (ix4 g a b c) := by
  subst h
  rw [read_block_squeezed]
  congr 1
  funext d
  apply Fin.ext
  rw [Rect.emb_apply]
  match d with
  | ⟨0, _⟩ => show g.val + 1 * 0 = g.val; omega
  | ⟨1, _⟩ => show 0 + 1 * a.val = a.val; omega
  | ⟨2, _⟩ => show 0 + 1 * b.val = b.val; omega
  | ⟨3, _⟩ => show 0 + 1 * c.val = c.val; omega

/-- A write through ANOTHER row's view leaves this row's part of the stack as it was. -/
theorem read_write_other_row {sig : RefSig} {κ : Kind} {sp : Space} (M : Memref sig κ sp (stackShape G A B C) e) (g g' : Fin G) (hg : g ≠ g')
    (off : Fin 4 → ℕ) (h : off = ![g'.val, 0, 0, 0]) (inb : ∀ a, off a + (memberShape A B C).size a ≤ (stackShape G A B C).size a) (hr)
    (hq : (memberShape A B C).Squeezes (rowShape A B C)) (f : M.view.ty.Contents Val) (w : (rowShape A B C).Idx → Val e)
    (Ms : Finset (rowShape A B C).Idx) (a : Fin A) (b : Fin B) (c : Fin C) :
    M.view.read Val (((M.slice (Rect.unit (s := stackShape G A B C) off (memberShape A B C).size inb) hr).squeeze (rowShape A B C) hq).view.write Val f w Ms)
        (ix4 g a b c)
      = M.view.read Val f (ix4 g a b c) := by
  subst h
  apply View.read_congr_at
  apply View.write_of_not_mem
  intro hm
  obtain ⟨x, _, hx⟩ := Finset.mem_map.mp hm
  have e1 : ((M.slice (Rect.unit (s := stackShape G A B C) ![g'.val, 0, 0, 0] (memberShape A B C).size inb) hr).squeeze (rowShape A B C) hq).view.emb x
      = M.view.emb ((Rect.unit (s := stackShape G A B C) ![g'.val, 0, 0, 0] (memberShape A B C).size inb).emb
          (Shape.reshapeEquiv hq.numel_eq x)) := rfl
  rw [e1, Shape.reshapeEquiv_cons_one] at hx
  have h := M.view.emb.injective hx
  have h0 := congrArg (fun i : (stackShape G A B C).Idx => (i 0 : ℕ)) h
  simp only [Rect.emb_apply] at h0
  have h4 : (g' : ℕ) + 1 * 0 = (g : ℕ) := h0
  exact hg (Fin.ext (by omega))

/-- A whole row written through its own view reads back, at that row of the stack, as the payload. -/
theorem read_write_own_row {sig : RefSig} {κ : Kind} {sp : Space} (M : Memref sig κ sp (stackShape G A B C) e) (g : Fin G)
    (off : Fin 4 → ℕ) (h : off = ![g.val, 0, 0, 0]) (inb : ∀ a, off a + (memberShape A B C).size a ≤ (stackShape G A B C).size a) (hr)
    (hq : (memberShape A B C).Squeezes (rowShape A B C)) (f : M.view.ty.Contents Val) (w : (rowShape A B C).Idx → Val e)
    (a : Fin A) (b : Fin B) (c : Fin C) :
    M.view.read Val (((M.slice (Rect.unit (s := stackShape G A B C) off (memberShape A B C).size inb) hr).squeeze (rowShape A B C) hq).view.write Val f w Finset.univ)
        (ix4 g a b c)
      = w (ix3 a b c) := by
  rw [← read_row M g off h inb hr hq, View.read_write_univ]

/-- Row `g`'s payload among eight. -/
def sel8 (w0 w1 w2 w3 w4 w5 w6 w7 : (rowShape A B C).Idx → Val e) : Fin 8 → (rowShape A B C).Idx → Val e
  | ⟨0, _⟩ => w0 | ⟨1, _⟩ => w1 | ⟨2, _⟩ => w2 | ⟨3, _⟩ => w3
  | ⟨4, _⟩ => w4 | ⟨5, _⟩ => w5 | ⟨6, _⟩ => w6 | ⟨7, _⟩ => w7

/-- Eight rows written one after the other, each whole through its own view, over ANY earlier contents `f`: the stack read
    at `(g, a, b, c)` is row `g`'s payload at `(a, b, c)`. The later rows' writes miss row `g`, row `g`'s own write is read
    back, and nothing below it is looked at: `f` does not occur on the right. -/
theorem read_rows8 {sig : RefSig} {κ : Kind} {sp : Space} (M : Memref sig κ sp (stackShape 8 A B C) e)
    (off0 off1 off2 off3 off4 off5 off6 off7 : Fin 4 → ℕ)
    (h0 : off0 = ![0, 0, 0, 0]) (h1 : off1 = ![1, 0, 0, 0]) (h2 : off2 = ![2, 0, 0, 0]) (h3 : off3 = ![3, 0, 0, 0])
    (h4 : off4 = ![4, 0, 0, 0]) (h5 : off5 = ![5, 0, 0, 0]) (h6 : off6 = ![6, 0, 0, 0]) (h7 : off7 = ![7, 0, 0, 0])
    (inb0 inb1 inb2 inb3 inb4 inb5 inb6 inb7) (hr0 hr1 hr2 hr3 hr4 hr5 hr6 hr7)
    (hq : (memberShape A B C).Squeezes (rowShape A B C)) (f : M.view.ty.Contents Val)
    (w0 w1 w2 w3 w4 w5 w6 w7 : (rowShape A B C).Idx → Val e) (g : Fin 8) (a : Fin A) (b : Fin B) (c : Fin C) :
    M.view.read Val (((M.slice (Rect.unit (s := stackShape 8 A B C) off7 (memberShape A B C).size inb7) hr7).squeeze (rowShape A B C) hq).view.write Val (((M.slice (Rect.unit (s := stackShape 8 A B C) off6 (memberShape A B C).size inb6) hr6).squeeze (rowShape A B C) hq).view.write Val (((M.slice (Rect.unit (s := stackShape 8 A B C) off5 (memberShape A B C).size inb5) hr5).squeeze (rowShape A B C) hq).view.write Val (((M.slice (Rect.unit (s := stackShape 8 A B C) off4 (memberShape A B C).size inb4) hr4).squeeze (rowShape A B C) hq).view.write Val (((M.slice (Rect.unit (s := stackShape 8 A B C) off3 (memberShape A B C).size inb3) hr3).squeeze (rowShape A B C) hq).view.write Val (((M.slice (Rect.unit (s := stackShape 8 A B C) off2 (memberShape A B C).size inb2) hr2).squeeze (rowShape A B C) hq).view.write Val (((M.slice (Rect.unit (s := stackShape 8 A B C) off1 (memberShape A B C).size inb1) hr1).squeeze (rowShape A B C) hq).view.write Val (((M.slice (Rect.unit (s := stackShape 8 A B C) off0 (memberShape A B C).size inb0) hr0).squeeze (rowShape A B C) hq).view.write Val f w0 Finset.univ) w1 Finset.univ) w2 Finset.univ) w3 Finset.univ) w4 Finset.univ) w5 Finset.univ) w6 Finset.univ) w7 Finset.univ) (ix4 g a b c)
      = sel8 w0 w1 w2 w3 w4 w5 w6 w7 g (ix3 a b c) :=
  match g with
  | ⟨0, _⟩ => by
    rw [read_write_other_row M ⟨0, by omega⟩ ⟨7, by omega⟩ (Fin.ne_of_val_ne (by decide : (0 : ℕ) ≠ 7)) off7 h7 inb7 hr7 hq,
      read_write_other_row M ⟨0, by omega⟩ ⟨6, by omega⟩ (Fin.ne_of_val_ne (by decide : (0 : ℕ) ≠ 6)) off6 h6 inb6 hr6 hq,
      read_write_other_row M ⟨0, by omega⟩ ⟨5, by omega⟩ (Fin.ne_of_val_ne (by decide : (0 : ℕ) ≠ 5)) off5 h5 inb5 hr5 hq,
      read_write_other_row M ⟨0, by omega⟩ ⟨4, by omega⟩ (Fin.ne_of_val_ne (by decide : (0 : ℕ) ≠ 4)) off4 h4 inb4 hr4 hq,
      read_write_other_row M ⟨0, by omega⟩ ⟨3, by omega⟩ (Fin.ne_of_val_ne (by decide : (0 : ℕ) ≠ 3)) off3 h3 inb3 hr3 hq,
      read_write_other_row M ⟨0, by omega⟩ ⟨2, by omega⟩ (Fin.ne_of_val_ne (by decide : (0 : ℕ) ≠ 2)) off2 h2 inb2 hr2 hq,
      read_write_other_row M ⟨0, by omega⟩ ⟨1, by omega⟩ (Fin.ne_of_val_ne (by decide : (0 : ℕ) ≠ 1)) off1 h1 inb1 hr1 hq,
      read_write_own_row M ⟨0, by omega⟩ off0 h0 inb0 hr0 hq]
    rfl
  | ⟨1, _⟩ => by
    rw [read_write_other_row M ⟨1, by omega⟩ ⟨7, by omega⟩ (Fin.ne_of_val_ne (by decide : (1 : ℕ) ≠ 7)) off7 h7 inb7 hr7 hq,
      read_write_other_row M ⟨1, by omega⟩ ⟨6, by omega⟩ (Fin.ne_of_val_ne (by decide : (1 : ℕ) ≠ 6)) off6 h6 inb6 hr6 hq,
      read_write_other_row M ⟨1, by omega⟩ ⟨5, by omega⟩ (Fin.ne_of_val_ne (by decide : (1 : ℕ) ≠ 5)) off5 h5 inb5 hr5 hq,
      read_write_other_row M ⟨1, by omega⟩ ⟨4, by omega⟩ (Fin.ne_of_val_ne (by decide : (1 : ℕ) ≠ 4)) off4 h4 inb4 hr4 hq,
      read_write_other_row M ⟨1, by omega⟩ ⟨3, by omega⟩ (Fin.ne_of_val_ne (by decide : (1 : ℕ) ≠ 3)) off3 h3 inb3 hr3 hq,
      read_write_other_row M ⟨1, by omega⟩ ⟨2, by omega⟩ (Fin.ne_of_val_ne (by decide : (1 : ℕ) ≠ 2)) off2 h2 inb2 hr2 hq,
      read_write_own_row M ⟨1, by omega⟩ off1 h1 inb1 hr1 hq]
    rfl
  | ⟨2, _⟩ => by
    rw [read_write_other_row M ⟨2, by omega⟩ ⟨7, by omega⟩ (Fin.ne_of_val_ne (by decide : (2 : ℕ) ≠ 7)) off7 h7 inb7 hr7 hq,
      read_write_other_row M ⟨2, by omega⟩ ⟨6, by omega⟩ (Fin.ne_of_val_ne (by decide : (2 : ℕ) ≠ 6)) off6 h6 inb6 hr6 hq,
      read_write_other_row M ⟨2, by omega⟩ ⟨5, by omega⟩ (Fin.ne_of_val_ne (by decide : (2 : ℕ) ≠ 5)) off5 h5 inb5 hr5 hq,
      read_write_other_row M ⟨2, by omega⟩ ⟨4, by omega⟩ (Fin.ne_of_val_ne (by decide : (2 : ℕ) ≠ 4)) off4 h4 inb4 hr4 hq,
      read_write_other_row M ⟨2, by omega⟩ ⟨3, by omega⟩ (Fin.ne_of_val_ne (by decide : (2 : ℕ) ≠ 3)) off3 h3 inb3 hr3 hq,
      read_write_own_row M ⟨2, by omega⟩ off2 h2 inb2 hr2 hq]
    rfl
  | ⟨3, _⟩ => by
    rw [read_write_other_row M ⟨3, by omega⟩ ⟨7, by omega⟩ (Fin.ne_of_val_ne (by decide : (3 : ℕ) ≠ 7)) off7 h7 inb7 hr7 hq,
      read_write_other_row M ⟨3, by omega⟩ ⟨6, by omega⟩ (Fin.ne_of_val_ne (by decide : (3 : ℕ) ≠ 6)) off6 h6 inb6 hr6 hq,
      read_write_other_row M ⟨3, by omega⟩ ⟨5, by omega⟩ (Fin.ne_of_val_ne (by decide : (3 : ℕ) ≠ 5)) off5 h5 inb5 hr5 hq,
      read_write_other_row M ⟨3, by omega⟩ ⟨4, by omega⟩ (Fin.ne_of_val_ne (by decide : (3 : ℕ) ≠ 4)) off4 h4 inb4 hr4 hq,
      read_write_own_row M ⟨3, by omega⟩ off3 h3 inb3 hr3 hq]
    rfl
  | ⟨4, _⟩ => by
    rw [read_write_other_row M ⟨4, by omega⟩ ⟨7, by omega⟩ (Fin.ne_of_val_ne (by decide : (4 : ℕ) ≠ 7)) off7 h7 inb7 hr7 hq,
      read_write_other_row M ⟨4, by omega⟩ ⟨6, by omega⟩ (Fin.ne_of_val_ne (by decide : (4 : ℕ) ≠ 6)) off6 h6 inb6 hr6 hq,
      read_write_other_row M ⟨4, by omega⟩ ⟨5, by omega⟩ (Fin.ne_of_val_ne (by decide : (4 : ℕ) ≠ 5)) off5 h5 inb5 hr5 hq,
      read_write_own_row M ⟨4, by omega⟩ off4 h4 inb4 hr4 hq]
    rfl
  | ⟨5, _⟩ => by
    rw [read_write_other_row M ⟨5, by omega⟩ ⟨7, by omega⟩ (Fin.ne_of_val_ne (by decide : (5 : ℕ) ≠ 7)) off7 h7 inb7 hr7 hq,
      read_write_other_row M ⟨5, by omega⟩ ⟨6, by omega⟩ (Fin.ne_of_val_ne (by decide : (5 : ℕ) ≠ 6)) off6 h6 inb6 hr6 hq,
      read_write_own_row M ⟨5, by omega⟩ off5 h5 inb5 hr5 hq]
    rfl
  | ⟨6, _⟩ => by
    rw [read_write_other_row M ⟨6, by omega⟩ ⟨7, by omega⟩ (Fin.ne_of_val_ne (by decide : (6 : ℕ) ≠ 7)) off7 h7 inb7 hr7 hq,
      read_write_own_row M ⟨6, by omega⟩ off6 h6 inb6 hr6 hq]
    rfl
  | ⟨7, _⟩ => by
    rw [read_write_own_row M ⟨7, by omega⟩ off7 h7 inb7 hr7 hq]
    rfl

/-- The same at any index of the stack, named by its coordinates. -/
theorem read_rows8_at {sig : RefSig} {κ : Kind} {sp : Space} (M : Memref sig κ sp (stackShape 8 A B C) e)
    (off0 off1 off2 off3 off4 off5 off6 off7 : Fin 4 → ℕ)
    (h0 : off0 = ![0, 0, 0, 0]) (h1 : off1 = ![1, 0, 0, 0]) (h2 : off2 = ![2, 0, 0, 0]) (h3 : off3 = ![3, 0, 0, 0])
    (h4 : off4 = ![4, 0, 0, 0]) (h5 : off5 = ![5, 0, 0, 0]) (h6 : off6 = ![6, 0, 0, 0]) (h7 : off7 = ![7, 0, 0, 0])
    (inb0 inb1 inb2 inb3 inb4 inb5 inb6 inb7) (hr0 hr1 hr2 hr3 hr4 hr5 hr6 hr7)
    (hq : (memberShape A B C).Squeezes (rowShape A B C)) (f : M.view.ty.Contents Val)
    (w0 w1 w2 w3 w4 w5 w6 w7 : (rowShape A B C).Idx → Val e) (j : (stackShape 8 A B C).Idx) :
    M.view.read Val (((M.slice (Rect.unit (s := stackShape 8 A B C) off7 (memberShape A B C).size inb7) hr7).squeeze (rowShape A B C) hq).view.write Val (((M.slice (Rect.unit (s := stackShape 8 A B C) off6 (memberShape A B C).size inb6) hr6).squeeze (rowShape A B C) hq).view.write Val (((M.slice (Rect.unit (s := stackShape 8 A B C) off5 (memberShape A B C).size inb5) hr5).squeeze (rowShape A B C) hq).view.write Val (((M.slice (Rect.unit (s := stackShape 8 A B C) off4 (memberShape A B C).size inb4) hr4).squeeze (rowShape A B C) hq).view.write Val (((M.slice (Rect.unit (s := stackShape 8 A B C) off3 (memberShape A B C).size inb3) hr3).squeeze (rowShape A B C) hq).view.write Val (((M.slice (Rect.unit (s := stackShape 8 A B C) off2 (memberShape A B C).size inb2) hr2).squeeze (rowShape A B C) hq).view.write Val (((M.slice (Rect.unit (s := stackShape 8 A B C) off1 (memberShape A B C).size inb1) hr1).squeeze (rowShape A B C) hq).view.write Val (((M.slice (Rect.unit (s := stackShape 8 A B C) off0 (memberShape A B C).size inb0) hr0).squeeze (rowShape A B C) hq).view.write Val f w0 Finset.univ) w1 Finset.univ) w2 Finset.univ) w3 Finset.univ) w4 Finset.univ) w5 Finset.univ) w6 Finset.univ) w7 Finset.univ) j
      = sel8 w0 w1 w2 w3 w4 w5 w6 w7 (j 0) (ix3 (j 1) (j 2) (j 3)) :=
  (congrArg _ (Idealize.ShloMosaic.ValueIdx.eq_ix4 j)).trans
    (read_rows8 M off0 off1 off2 off3 off4 off5 off6 off7 h0 h1 h2 h3 h4 h5 h6 h7 inb0 inb1 inb2 inb3 inb4 inb5 inb6 inb7 hr0 hr1 hr2 hr3 hr4 hr5 hr6 hr7 hq f w0 w1 w2 w3 w4 w5 w6 w7 (j 0) (j 1) (j 2) (j 3))

/-- So a load of any box of the stack after the eight row writes does not depend on what the buffer held before them. -/
theorem readAt_rows8_base {sig : RefSig} {κ : Kind} {sp : Space} (M : Memref sig κ sp (stackShape 8 A B C) e)
    (off0 off1 off2 off3 off4 off5 off6 off7 : Fin 4 → ℕ)
    (h0 : off0 = ![0, 0, 0, 0]) (h1 : off1 = ![1, 0, 0, 0]) (h2 : off2 = ![2, 0, 0, 0]) (h3 : off3 = ![3, 0, 0, 0])
    (h4 : off4 = ![4, 0, 0, 0]) (h5 : off5 = ![5, 0, 0, 0]) (h6 : off6 = ![6, 0, 0, 0]) (h7 : off7 = ![7, 0, 0, 0])
    (inb0 inb1 inb2 inb3 inb4 inb5 inb6 inb7) (hr0 hr1 hr2 hr3 hr4 hr5 hr6 hr7)
    (hq : (memberShape A B C).Squeezes (rowShape A B C)) (f f' : M.view.ty.Contents Val)
    (w0 w1 w2 w3 w4 w5 w6 w7 : (rowShape A B C).Idx → Val e) (r : LoadRect (stackShape 8 A B C)) :
    M.view.readAt Val r (((M.slice (Rect.unit (s := stackShape 8 A B C) off7 (memberShape A B C).size inb7) hr7).squeeze (rowShape A B C) hq).view.write Val (((M.slice (Rect.unit (s := stackShape 8 A B C) off6 (memberShape A B C).size inb6) hr6).squeeze (rowShape A B C) hq).view.write Val (((M.slice (Rect.unit (s := stackShape 8 A B C) off5 (memberShape A B C).size inb5) hr5).squeeze (rowShape A B C) hq).view.write Val (((M.slice (Rect.unit (s := stackShape 8 A B C) off4 (memberShape A B C).size inb4) hr4).squeeze (rowShape A B C) hq).view.write Val (((M.slice (Rect.unit (s := stackShape 8 A B C) off3 (memberShape A B C).size inb3) hr3).squeeze (rowShape A B C) hq).view.write Val (((M.slice (Rect.unit (s := stackShape 8 A B C) off2 (memberShape A B C).size inb2) hr2).squeeze (rowShape A B C) hq).view.write Val (((M.slice (Rect.unit (s := stackShape 8 A B C) off1 (memberShape A B C).size inb1) hr1).squeeze (rowShape A B C) hq).view.write Val (((M.slice (Rect.unit (s := stackShape 8 A B C) off0 (memberShape A B C).size inb0) hr0).squeeze (rowShape A B C) hq).view.write Val f w0 Finset.univ) w1 Finset.univ) w2 Finset.univ) w3 Finset.univ) w4 Finset.univ) w5 Finset.univ) w6 Finset.univ) w7 Finset.univ)
      = M.view.readAt Val r (((M.slice (Rect.unit (s := stackShape 8 A B C) off7 (memberShape A B C).size inb7) hr7).squeeze (rowShape A B C) hq).view.write Val (((M.slice (Rect.unit (s := stackShape 8 A B C) off6 (memberShape A B C).size inb6) hr6).squeeze (rowShape A B C) hq).view.write Val (((M.slice (Rect.unit (s := stackShape 8 A B C) off5 (memberShape A B C).size inb5) hr5).squeeze (rowShape A B C) hq).view.write Val (((M.slice (Rect.unit (s := stackShape 8 A B C) off4 (memberShape A B C).size inb4) hr4).squeeze (rowShape A B C) hq).view.write Val (((M.slice (Rect.unit (s := stackShape 8 A B C) off3 (memberShape A B C).size inb3) hr3).squeeze (rowShape A B C) hq).view.write Val (((M.slice (Rect.unit (s := stackShape 8 A B C) off2 (memberShape A B C).size inb2) hr2).squeeze (rowShape A B C) hq).view.write Val (((M.slice (Rect.unit (s := stackShape 8 A B C) off1 (memberShape A B C).size inb1) hr1).squeeze (rowShape A B C) hq).view.write Val (((M.slice (Rect.unit (s := stackShape 8 A B C) off0 (memberShape A B C).size inb0) hr0).squeeze (rowShape A B C) hq).view.write Val f' w0 Finset.univ) w1 Finset.univ) w2 Finset.univ) w3 Finset.univ) w4 Finset.univ) w5 Finset.univ) w6 Finset.univ) w7 Finset.univ) :=
  funext fun x => by
    rw [View.readAt_apply, View.readAt_apply,
      read_rows8_at M off0 off1 off2 off3 off4 off5 off6 off7 h0 h1 h2 h3 h4 h5 h6 h7 inb0 inb1 inb2 inb3 inb4 inb5 inb6 inb7 hr0 hr1 hr2 hr3 hr4 hr5 hr6 hr7 hq f, read_rows8_at M off0 off1 off2 off3 off4 off5 off6 off7 h0 h1 h2 h3 h4 h5 h6 h7 inb0 inb1 inb2 inb3 inb4 inb5 inb6 inb7 hr0 hr1 hr2 hr3 hr4 hr5 hr6 hr7 hq f']

end Idealize.ShloMosaic.RowStack

end
-- ==== Proof.Spec.lean ====
/-
  The one function both programs compute, index by index, over the extended reals.

  For a batch row `b` the index word `idx b` names a row of the two tables; the result at `(b, p, q, r)` is
  `x (b, p, q, r) · masks (idx b, p, q, r) + sites (idx b, p, q, r)`. The word is read unsigned, which under the
  range hypothesis `InRange` (every word below 256) is also its signed reading.
-/
import Idealize.ShloMosaic.PureOps.Ideal
import Idealize.ShloMosaic.Lib.ValueIdx

noncomputable section

namespace Cert.Spec

open Idealize.ShloMosaic Idealize.ShloMosaic.ValueIdx

/-- The batch of feature maps, `[64, 32, 32, 128]`. -/
abbrev SX : Shape := ⟨4, ![64, 32, 32, 128]⟩
/-- A table of 256 feature maps, `[256, 32, 32, 128]`. -/
abbrev ST : Shape := ⟨4, ![256, 32, 32, 128]⟩
/-- The index vector, `[64]`. -/
abbrev SI : Shape := ⟨1, ![64]⟩

/-- Every index word, read unsigned, names a row of the tables. -/
def InRange (idx : IVec SI 32) : Prop := ∀ b : Fin 64, (idx (ix1 b)).toNat < 256

/-- The table row batch row `b` selects. -/
def row (idx : IVec SI 32) (h : InRange idx) (b : Fin 64) : Fin 256 := ⟨(idx (ix1 b)).toNat, h b⟩

/-- The result: the input scaled by the selected mask row, plus the selected site row. -/
def G (x : FVec Ideal SX .f32) (sites masks : FVec Ideal ST .f32) (idx : IVec SI 32) (h : InRange idx) :
    FVec Ideal SX .f32 :=
  fun i => x i * masks (ix4 (row idx h (i 0)) (i 1) (i 2) (i 3)) + sites (ix4 (row idx h (i 0)) (i 1) (i 2) (i 3))

/-- `G` at explicit coordinates. -/
theorem G_apply (x : FVec Ideal SX .f32) (sites masks : FVec Ideal ST .f32) (idx : IVec SI 32) (h : InRange idx)
    (b : Fin 64) (p q : Fin 32) (r : Fin 128) :
    G x sites masks idx h (ix4 b p q r)
      = x (ix4 b p q r) * masks (ix4 (row idx h b) p q r) + sites (ix4 (row idx h b) p q r) := rfl

end Cert.Spec

end
-- ==== Proof.ClipWord.lean ====
/-
  Clipping a 32-bit word into [0, 255].

  The signed maximum of a word with 0 is a word whose signed reading is non-negative; the signed minimum of that with
  255 is a word whose signed reading lies in [0, 255], so its unsigned reading is below 256. A word whose unsigned reading
  is already below 256 is left as it is by both operations.
-/
import Idealize.ShloMosaic.PureOps
import Idealize.ShloMosaic.Lib.StableHlo.Predicate

namespace Cert.ClipWord

open Idealize.ShloMosaic

/-- The word clipped into [0, 255]: the signed maximum with 0, then the signed minimum with 255. -/
abbrev clip (w : BitVec 32) : BitVec 32 := IntOp.minsi 255#32 (IntOp.maxsi 0#32 w)

private theorem toInt_zero : (0#32 : BitVec 32).toInt = 0 := by decide
private theorem toInt_255 : (255#32 : BitVec 32).toInt = 255 := by decide

/-- The signed maximum with 0 reads non-negative. -/
theorem maxsi_zero_nonneg (w : BitVec 32) : 0 ≤ (IntOp.maxsi 0#32 w).toInt := by
  unfold IntOp.maxsi
  split
  · rw [toInt_zero]
  · rename_i hc
    simp only [BitVec.slt, toInt_zero, decide_eq_true_eq, not_lt] at hc
    exact hc

/-- The signed minimum of 255 and a word that reads non-negative reads in [0, 255]. -/
theorem minsi_255_range (v : BitVec 32) (hv : 0 ≤ v.toInt) :
    0 ≤ (IntOp.minsi 255#32 v).toInt ∧ (IntOp.minsi 255#32 v).toInt ≤ 255 := by
  unfold IntOp.minsi
  split
  · rw [toInt_255]; omega
  · rename_i hc
    simp only [BitVec.slt, toInt_255, decide_eq_true_eq, not_lt] at hc
    exact ⟨hv, hc⟩

/-- A word whose signed reading lies in [0, 255] reads below 256 unsigned. -/
theorem toNat_lt_of_toInt (v : BitVec 32) (h0 : 0 ≤ v.toInt) (h1 : v.toInt ≤ 255) : v.toNat < 256 := by
  have hv := v.isLt
  rw [BitVec.toInt_eq_toNat_cond] at h0 h1
  split at h0 <;> omega

/-- The clipped word reads below 256 unsigned, whatever the word. -/
theorem clip_toNat_lt (w : BitVec 32) : (clip w).toNat < 256 :=
  have h := minsi_255_range _ (maxsi_zero_nonneg w)
  toNat_lt_of_toInt _ h.1 h.2

/-- A word that reads below 256 unsigned is its own clipping. -/
theorem clip_eq_of_lt (w : BitVec 32) (hw : w.toNat < 256) : clip w = w := by
  have hti : w.toInt = w.toNat := StableHlo.Predicate.toInt_eq_toNat_of_lt (by omega)
  have hmax : IntOp.maxsi 0#32 w = w := by
    unfold IntOp.maxsi
    split
    · rename_i hc
      simp only [BitVec.slt, toInt_zero, hti, decide_eq_true_eq] at hc
      omega
    · rfl
  show IntOp.minsi 255#32 (IntOp.maxsi 0#32 w) = w
  rw [hmax]
  unfold IntOp.minsi
  split
  · rename_i hc
    simp only [BitVec.slt, toInt_255, hti, decide_eq_true_eq] at hc
    omega
  · rfl

end Cert.ClipWord
-- ==== Proof.HypsBits.lean ====
/-
  The side conditions the kernel body assumes hold for every launch memory.

  Before the launch the host clips the index vector into [0, 255]: the signed maximum with 0, then the signed minimum with
  255, word by word. The prefetched table the body reads is that clipped vector, so every word of it reads below 256
  unsigned, whatever the index input was. Each side condition says that the table row a loaded word names, a
  [1, 32, 32, 128] block at offset (word, 0, 0, 0), lies inside the [256, 32, 32, 128] table: word + 1 ≤ 256 on the first
  axis and 0 + 32 ≤ 32, 0 + 32 ≤ 32, 0 + 128 ≤ 128 on the others. When the index input is already in range the clipped
  vector is the index input.
-/
import proofs.«401894_j30520037605554_2_alg».proof.Proof.Gen.Kernel.Frame.Runs
import proofs.«401894_j30520037605554_2_alg».proof.Proof.Spec
import proofs.«401894_j30520037605554_2_alg».proof.Proof.ClipWord
import Idealize.ShloMosaic.Lib.ValueIdx
import Idealize.ShloMosaic.Lib.StableHlo.Run

set_option maxRecDepth 16384

noncomputable section

namespace Cert.Kernel.HypsAll

open Cert.Kernel Cert.Kernel.Gen
open Idealize.ShloMosaic Idealize.ShloMosaic.TcCoe Idealize.ShloMosaic.ValueIdx Idealize.SL.Sem

variable {F : FTy → Type} [FloatOps F]

/-- The table's word at position j: the index word clipped into [0, 255]. -/
theorem tbl_apply (m : (ℓ : Loc nD τ sig) → Buf (Elt F) ℓ) (j : Fin 64) :
    (Gen.tbl (F := F) m 0 (ix1 j) : BitVec 32)
      = IntOp.minsi 255#32 (IntOp.maxsi 0#32 (m (((0 : Dev nD).tc : Thread nD τ).loc main_arg3) (ix1 j))) := by
  unfold Gen.tbl
  show V m 0 main_call0_v0 (ix1 j) = _
  unfold V
  after_results
  rfl

/-- Every word of the table reads below 256 unsigned. -/
theorem tbl_lt (m : (ℓ : Loc nD τ sig) → Buf (Elt F) ℓ) (j : Fin 64) :
    (Gen.tbl (F := F) m 0 (ix1 j) : BitVec 32).toNat < 256 := by
  rw [tbl_apply]; exact Cert.ClipWord.clip_toNat_lt _

/-- When the index input is in range the table is the index input. -/
theorem tbl_eq_of_inRange (m : (ℓ : Loc nD τ sig) → Buf (Elt F) ℓ)
    (h : Cert.Spec.InRange (m (((0 : Dev nD).tc : Thread nD τ).loc main_arg3))) (j : Fin 64) :
    (Gen.tbl (F := F) m 0 (ix1 j) : BitVec 32) = m (((0 : Dev nD).tc : Thread nD τ).loc main_arg3) (ix1 j) := by
  rw [tbl_apply]; exact Cert.ClipWord.clip_eq_of_lt _ (h j)

/-- Whatever coordinates a load reads the table at, the word it reads is below 256 unsigned: the load through the whole
    table is the table at the coordinates' index. -/
theorem read_lt (m : (ℓ : Loc nD τ sig) → Buf (Elt F) ℓ) (R : LoadRect S64) (x : R.shape.Idx) :
    (tbM0_0.view.readAt (Elt F) R (Gen.tbl (F := F) m 0) x : BitVec 32).toNat < 256 := by
  show (Gen.tbl (F := F) m 0 (R.idx x) : BitVec 32).toNat < 256
  rw [eq_ix1 (R.idx x)]; exact tbl_lt m _

/-- Row w of the table, a [1, 32, 32, 128] block at offset (w, 0, 0, 0), lies inside the [256, 32, 32, 128] table when w is
    below 256. -/
theorem row_inb (w : BitVec 32) (hw : w.toNat < 256) :
    ∀ a, (![w.toNat, 0, 0, 0] : Fin 4 → Nat) a + S1x32x32x128.size a ≤ S256x32x32x128.size a := by
  intro a
  fin_cases a <;> simp [S1x32x32x128, S256x32x32x128] <;> omega

/-- The side conditions at every grid point, for every memory. -/
theorem hyps (m : (ℓ : Loc nD τ sig) → Buf (Elt F) ℓ) (hO : Gen.Ok m) : Gen.Hyps m hO :=
  Hyps.of
    (fun c t => ⟨row_inb _ (read_lt m _ _), row_inb _ (read_lt m _ _)⟩)
    (fun c t => ⟨row_inb _ (read_lt m _ _), row_inb _ (read_lt m _ _)⟩)
    (fun c t => ⟨row_inb _ (read_lt m _ _), row_inb _ (read_lt m _ _)⟩)
    (fun c t => ⟨row_inb _ (read_lt m _ _), row_inb _ (read_lt m _ _)⟩)
    (fun c t => ⟨row_inb _ (read_lt m _ _), row_inb _ (read_lt m _ _)⟩)
    (fun c t => ⟨row_inb _ (read_lt m _ _), row_inb _ (read_lt m _ _)⟩)
    (fun c t => ⟨row_inb _ (read_lt m _ _), row_inb _ (read_lt m _ _)⟩)
    (fun c t => row_inb _ (read_lt m _ _))

end Cert.Kernel.HypsAll

end
-- ==== Proof.HypsIdeal.lean ====
/-
  The side conditions the kernel body assumes hold for every launch memory.

  Before the launch the host clips the index vector into [0, 255]: the signed maximum with 0, then the signed minimum with
  255, word by word. The prefetched table the body reads is that clipped vector, so every word of it reads below 256
  unsigned, whatever the index input was. Each side condition says that the table row a loaded word names, a
  [1, 32, 32, 128] block at offset (word, 0, 0, 0), lies inside the [256, 32, 32, 128] table: word + 1 ≤ 256 on the first
  axis and 0 + 32 ≤ 32, 0 + 32 ≤ 32, 0 + 128 ≤ 128 on the others. When the index input is already in range the clipped
  vector is the index input.
-/
import proofs.«401894_j30520037605554_2_alg».proof.Proof.Gen.KernelIdeal.Frame.Runs
import proofs.«401894_j30520037605554_2_alg».proof.Proof.Spec
import proofs.«401894_j30520037605554_2_alg».proof.Proof.ClipWord
import Idealize.ShloMosaic.Lib.ValueIdx
import Idealize.ShloMosaic.Lib.StableHlo.Run

set_option maxRecDepth 16384

noncomputable section

namespace Cert.KernelIdeal.HypsAll

open Cert.KernelIdeal Cert.KernelIdeal.Gen
open Idealize.ShloMosaic Idealize.ShloMosaic.TcCoe Idealize.ShloMosaic.ValueIdx Idealize.SL.Sem

variable {F : FTy → Type} [FloatOps F]

/-- The table's word at position j: the index word clipped into [0, 255]. -/
theorem tbl_apply (m : (ℓ : Loc nD τ sig) → Buf (Elt F) ℓ) (j : Fin 64) :
    (Gen.tbl (F := F) m 0 (ix1 j) : BitVec 32)
      = IntOp.minsi 255#32 (IntOp.maxsi 0#32 (m (((0 : Dev nD).tc : Thread nD τ).loc main_arg3) (ix1 j))) := by
  unfold Gen.tbl
  show V m 0 main_call0_v0 (ix1 j) = _
  unfold V
  after_results
  rfl

/-- Every word of the table reads below 256 unsigned. -/
theorem tbl_lt (m : (ℓ : Loc nD τ sig) → Buf (Elt F) ℓ) (j : Fin 64) :
    (Gen.tbl (F := F) m 0 (ix1 j) : BitVec 32).toNat < 256 := by
  rw [tbl_apply]; exact Cert.ClipWord.clip_toNat_lt _

/-- When the index input is in range the table is the index input. -/
theorem tbl_eq_of_inRange (m : (ℓ : Loc nD τ sig) → Buf (Elt F) ℓ)
    (h : Cert.Spec.InRange (m (((0 : Dev nD).tc : Thread nD τ).loc main_arg3))) (j : Fin 64) :
    (Gen.tbl (F := F) m 0 (ix1 j) : BitVec 32) = m (((0 : Dev nD).tc : Thread nD τ).loc main_arg3) (ix1 j) := by
  rw [tbl_apply]; exact Cert.ClipWord.clip_eq_of_lt _ (h j)

/-- Whatever coordinates a load reads the table at, the word it reads is below 256 unsigned: the load through the whole
    table is the table at the coordinates' index. -/
theorem read_lt (m : (ℓ : Loc nD τ sig) → Buf (Elt F) ℓ) (R : LoadRect S64) (x : R.shape.Idx) :
    (tbM0_0.view.readAt (Elt F) R (Gen.tbl (F := F) m 0) x : BitVec 32).toNat < 256 := by
  show (Gen.tbl (F := F) m 0 (R.idx x) : BitVec 32).toNat < 256
  rw [eq_ix1 (R.idx x)]; exact tbl_lt m _

/-- Row w of the table, a [1, 32, 32, 128] block at offset (w, 0, 0, 0), lies inside the [256, 32, 32, 128] table when w is
    below 256. -/
theorem row_inb (w : BitVec 32) (hw : w.toNat < 256) :
    ∀ a, (![w.toNat, 0, 0, 0] : Fin 4 → Nat) a + S1x32x32x128.size a ≤ S256x32x32x128.size a := by
  intro a
  fin_cases a <;> simp [S1x32x32x128, S256x32x32x128] <;> omega

/-- The side conditions at every grid point, for every memory. -/
theorem hyps (m : (ℓ : Loc nD τ sig) → Buf (Elt F) ℓ) (hO : Gen.Ok m) : Gen.Hyps m hO :=
  Hyps.of
    (fun c t => ⟨row_inb _ (read_lt m _ _), row_inb _ (read_lt m _ _)⟩)
    (fun c t => ⟨row_inb _ (read_lt m _ _), row_inb _ (read_lt m _ _)⟩)
    (fun c t => ⟨row_inb _ (read_lt m _ _), row_inb _ (read_lt m _ _)⟩)
    (fun c t => ⟨row_inb _ (read_lt m _ _), row_inb _ (read_lt m _ _)⟩)
    (fun c t => ⟨row_inb _ (read_lt m _ _), row_inb _ (read_lt m _ _)⟩)
    (fun c t => ⟨row_inb _ (read_lt m _ _), row_inb _ (read_lt m _ _)⟩)
    (fun c t => ⟨row_inb _ (read_lt m _ _), row_inb _ (read_lt m _ _)⟩)
    (fun c t => row_inb _ (read_lt m _ _))

end Cert.KernelIdeal.HypsAll

end
-- ==== Proof.PreRange.lean ====
/-
  The precondition bounds the index words.

  The precondition's last two conjuncts say that every index word is, read signed, at least 0 and below 256. A 32-bit
  word whose signed reading lies in [0, 256) has the same unsigned reading, so every index word names a table row.
-/
import proofs.«401894_j30520037605554_2_alg».proof.Proof.Gen.Pre_finite_inputs
import proofs.«401894_j30520037605554_2_alg».proof.Proof.Spec
import Idealize.ShloMosaic.Lib.ReduceAll

namespace Cert.PreRange

open Idealize.ShloMosaic Idealize.ShloMosaic.ValueIdx Cert.Pre_finite_inputs Cert.Pre_finite_inputs.Gen

/-- The scalar shape has one index. -/
instance : Subsingleton S_.Idx := ⟨fun a b => funext fun d => d.elim0⟩

/-- A 32-bit word whose signed reading is at least 0 and below 256 reads below 256 unsigned. -/
theorem toNat_lt_of_signed (w : BitVec 32) (h0 : (0#32 : BitVec 32).toInt ≤ w.toInt) (h1 : w.toInt < (256#32 : BitVec 32).toInt) :
    w.toNat < 256 := by
  have e0 : (0#32 : BitVec 32).toInt = 0 := by decide
  have e1 : (256#32 : BitVec 32).toInt = 256 := by decide
  rw [e0] at h0; rw [e1] at h1
  have hw := w.isLt
  rw [BitVec.toInt_eq_toNat_cond] at h0 h1
  split at h0 <;> omega

theorem inRange_of_pre {F : FTy → Type} [FloatOps F] (a0 : FVec F S64x32x32x128 .f32) (a1 a2 : FVec F S256x32x32x128 .f32)
    (a3 : IVec S64 32) (h : Cert.Pre_finite_inputs.fn (F := F) a0 a1 a2 a3 = fun _ => 1#1) : Cert.Spec.InRange a3 := by
  have h0 := congrFun h ix0
  dsimp only [fn, fn_part1, andi] at h0
  obtain ⟨h1, hlt⟩ := IntOp.andi_eq_one.1 h0
  obtain ⟨_, hge⟩ := IntOp.andi_eq_one.1 h1
  intro b
  have hb0 := Host.reduce_andi_all _ _ _ _ _ hge (ix1 b)
  have hb1 := Host.reduce_andi_all _ _ _ _ _ hlt (ix1 b)
  exact toNat_lt_of_signed _ (IntOp.cmpi_sge.1 hb0) (IntOp.cmpi_slt.1 hb1)

end Cert.PreRange
-- ==== Proof.RefRun.lean ====
/-
  The run of the reference program: @main is two calls of the outlined function @_take (each 23 host
  operations, one of them the select of the nested @_where), then a multiply and an add. The calls are unfolded
  at their call sites into one straight line of 48 operations over the calls' own buffers; the line's run is read
  back as one pure function `result` of the four arguments' launch contents.
-/
import proofs.«401894_j30520037605554_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## One `jnp.take` as a pure function -/

/-- The index vector with its negative entries wrapped by `+256`: @_take's first six operations and @_where's
    select (`idx < 0 ? idx + 256 : idx`, the compare signed). -/
def wrapped (idx : IVec S64 32) : IVec S64 32 :=
  select (cmpi .slt idx (broadcastInDim S64 ![] bcast_S_S64 (constantI S_ 32 0#32)))
    (addi idx (broadcastInDim S64 ![] bcast_S_S64 (constantI S_ 32 256#32))) idx

/-- The wrapped indices as the gather's column of start indices, `[64, 1]`. -/
def starts (idx : IVec S64 32) : IVec S64x1 32 :=
  broadcastInDim S64x1 ![0] bcast_S64_S64x1_0 (wrapped idx)

/-- Per batch row, whether the wrapped index lies in `[0, 255]` (signed compares, their conjunction reduced
    over the unit axis from `true`). -/
def inBounds (idx : IVec S64 32) : IVec S64 1 :=
  Host.reduce IntOp.andi
    (andi (cmpi .sge (starts idx) (broadcastInDim S64x1 ![] bcast_S_S64x1 (constantI S_ 32 0#32)))
      (cmpi .sle (starts idx)
        (broadcastInDim S64x1 ![0, 1] bcast_S1x1_S64x1_0_1 (broadcastInDim S1x1 ![1] bcast_S1_S1x1_1 (constantI S1 32 255#32)))))
    (constantI S_ 1 1#1) reducesTo_S64x1_S64_d1 h_S_

/-- One `jnp.take(x, idx, axis=0)` in mode "fill": the 23 operations of @_take composed. The gathered rows where
    the wrapped index is in bounds, the NaN constant elsewhere. -/
def take (x : FVec F S256x32x32x128 .f32) (idx : IVec S64 32) : FVec F S64x32x32x128 .f32 :=
  select (broadcastInDim S64x32x32x128 ![0] bcast_S64_S64x32x32x128_0 (inBounds idx))
    (Host.gather gather_S256x32x32x128_S64x1_S64x32x32x128_123_0_n_n_0_1_13232128 x (starts idx))
    (broadcastInDim S64x32x32x128 ![] bcast_S_S64x32x32x128 (constant S_ .f32 0x7FC00000#32))

/-- @main's result as a function of its four arguments: `a0 * take a2 a3 + take a1 a3`. -/
def result (a0 : FVec F S64x32x32x128 .f32) (a1 a2 : FVec F S256x32x32x128 .f32) (a3 : IVec S64 32) :
    FVec F S64x32x32x128 .f32 :=
  addf (mulf a0 (take a2 a3)) (take a1 a3)

/-! ## The straight line -/

/-- The 23 operations of one call of @_take on table `x` and index vector `i` over the call's record `φ`, in
    order, @_where's select in its place, followed by the operations `rest` that come after the call. -/
abbrev takeOps (x : TRef sig ⟨S256x32x32x128, .f32⟩) (i : TRef sig ⟨S64, .i32⟩) (φ : fn_take.Bufs)
    (rest : List (HloOp τ sig (Elt F))) : List (HloOp τ sig (Elt F)) :=
  TRef.nullary φ.c (constantI S_ 32 0#32) ::
  TRef.unary φ.c φ.v0 (broadcastInDim S64 ![] bcast_S_S64) ::
  TRef.binary i φ.v0 φ.v1 (cmpi .slt) ::
  TRef.nullary φ.c_0 (constantI S_ 32 256#32) ::
  TRef.unary φ.c_0 φ.v2 (broadcastInDim S64 ![] bcast_S_S64) ::
  TRef.binary i φ.v2 φ.v3 addi ::
  TRef.ternary φ.v1 φ.v3 i φ.call0.v0 select ::
  TRef.unary φ.call0.v0 φ.v5 (broadcastInDim S64x1 ![0] bcast_S64_S64x1_0) ::
  TRef.nullary φ.c_1 (constantI S1 32 255#32) ::
  TRef.nullary φ.c_2 (constantI S_ 32 0#32) ::
  TRef.unary φ.c_2 φ.v6 (broadcastInDim S64x1 ![] bcast_S_S64x1) ::
  TRef.binary φ.v5 φ.v6 φ.v7 (cmpi .sge) ::
  TRef.unary φ.c_1 φ.v8 (broadcastInDim S1x1 ![1] bcast_S1_S1x1_1) ::
  TRef.unary φ.v8 φ.v9 (broadcastInDim S64x1 ![0, 1] bcast_S1x1_S64x1_0_1) ::
  TRef.binary φ.v5 φ.v9 φ.v10 (cmpi .sle) ::
  TRef.binary φ.v7 φ.v10 φ.v11 andi ::
  TRef.nullary φ.c_3 (constantI S_ 1 1#1) ::
  TRef.binary φ.v11 φ.c_3 φ.v12 (fun x v => Host.reduce IntOp.andi x v reducesTo_S64x1_S64_d1 h_S_) ::
  TRef.binary x φ.v5 φ.v13 (fun x i => Host.gather gather_S256x32x32x128_S64x1_S64x32x32x128_123_0_n_n_0_1_13232128 x i) ::
  TRef.unary φ.v12 φ.v14 (broadcastInDim S64x32x32x128 ![0] bcast_S64_S64x32x32x128_0) ::
  TRef.nullary φ.cst (constant S_ .f32 0x7FC00000#32) ::
  TRef.unary φ.cst φ.v15 (broadcastInDim S64x32x32x128 ![] bcast_S_S64x32x32x128) ::
  TRef.ternary φ.v14 φ.v13 φ.v15 φ.v16 select :: rest

/-- @main's 48 operations, in order: the two calls unfolded over their own records, the multiply, the add. -/
abbrev ops : List (HloOp τ sig (Elt F)) :=
  takeOps (.of main_arg1) (.of main_arg3) main_call0 <|
  takeOps (.of main_arg2) (.of main_arg3) main_call1
  [ binary main_arg0 main_v1 main_v2 (mulf : (⟨S64x32x32x128, .f32⟩ : BufTy).Contents (Elt F) → (⟨S64x32x32x128, .f32⟩ : BufTy).Contents (Elt F) → (⟨S64x32x32x128, .f32⟩ : BufTy).Contents (Elt F)),
    binary main_v2 main_v0 main_v3 (addf : (⟨S64x32x32x128, .f32⟩ : BufTy).Contents (Elt F) → (⟨S64x32x32x128, .f32⟩ : BufTy).Contents (Elt F) → (⟨S64x32x32x128, .f32⟩ : BufTy).Contents (Elt F)) ]

/-- One call of @_take followed by a line is the line of its operations followed by that line: the callee's
    definition unfolded at the call, @_where's inside it, the binds reassociated. -/
theorem take_body_seq (x : TRef sig ⟨S256x32x32x128, .f32⟩) (i : TRef sig ⟨S64, .i32⟩) (φ : fn_take.Bufs)
    (rest : List (HloOp τ sig (Elt F))) :
    (fn_take.body (F := F) x i φ >>= fun _ => seq rest) = seq (takeOps x i φ rest) := by
  simp only [fn_take.body, fn_where.body, seq, bind_assoc, pure_bind]

/-- @main is that straight line. -/
theorem main_eq (c : Dev nD) : main (F := F) c = seq ops := by
  simp only [ops]
  rw [← take_body_seq, ← take_body_seq]
  rfl

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore references only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., binary_bufs_sub .., binary_bufs_sub ..⟩

attribute [local irreducible] Host.reduce Host.gather in
set_option maxRecDepth 8192 in
/-- What the result buffer holds after the line: the fold unrolled, each operation read at its own result buffer
    and passed over at every other; the typed references' transports are the identity at these literal references. -/
theorem v3_eq (V : Valuation τ sig (Elt F)) :
    after ops V (main_v3 : DevRef τ sig)
      = result (V (main_arg0 : DevRef τ sig)) (V (main_arg1 : DevRef τ sig)) (V (main_arg2 : DevRef τ sig))
          (V (main_arg3 : DevRef τ sig)) := by
  simp only [ops, takeOps]
  after_results_simp <;> (try simp only [TRef.ofBuf, TRef.toBuf, cast_eq]) <;> rfl

/-- No operation of the line writes an argument's buffer. -/
theorem arg0_eq (V : Valuation τ sig (Elt F)) : after ops V (main_arg0 : DevRef τ sig) = V (main_arg0 : DevRef τ sig) := by
  simp only [ops, takeOps]
  after_results_simp
theorem arg1_eq (V : Valuation τ sig (Elt F)) : after ops V (main_arg1 : DevRef τ sig) = V (main_arg1 : DevRef τ sig) := by
  simp only [ops, takeOps]
  after_results_simp
theorem arg2_eq (V : Valuation τ sig (Elt F)) : after ops V (main_arg2 : DevRef τ sig) = V (main_arg2 : DevRef τ sig) := by
  simp only [ops, takeOps]
  after_results_simp
theorem arg3_eq (V : Valuation τ sig (Elt F)) : after ops V (main_arg3 : DevRef τ sig) = V (main_arg3 : DevRef τ sig) := by
  simp only [ops, takeOps]
  after_results_simp

/-- On every device, for any float values, from any memory with zero counters: every weakly fair execution of
    @main terminates with the result buffer at `result` of the four arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v3) = result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v3).trans (v3_eq _),
      (h c main_arg0).trans (arg0_eq _), (h c main_arg1).trans (arg1_eq _),
      (h c main_arg2).trans (arg2_eq _), (h c main_arg3).trans (arg3_eq _)⟩)
    (run_seq scopedRefs_eq scopedSems_eq defs main (fun _ => ops) main_eq (fun _ => ops_sub) m ρ)

end Cert.ReferenceIdeal.RefRun

end
-- ==== Proof.LibRowGather4.lean ====
/-
  `stablehlo.gather` of whole rows of a rank-4 table, read at an index.

  What `jnp.take(x, idx, axis=0)` of a table `x : [N, P, Q, R]` at an index vector `idx : [B]` lowers to: a gather
  over the indices as a column `[B, 1]` with offset_dims `[1, 2, 3]`, collapsed_slice_dims `[0]`, start_index_map
  `[0]`, index_vector_dim 1 and slice sizes `[1, P, Q, R]`. Result element `(b, p, q, r)` is the table's at row
  `idx[b, 0]` — read as a signed integer and clamped into `[0, N − 1]`, as the gather clamps every start index — and
  at the same `(p, q, r)`: on axis 0 the operand index is the clamped start alone, on the other three axes the
  result's own offset coordinate alone.
-/
import Idealize.ShloMosaic.Lib.ValueIdx

noncomputable section

namespace Idealize.ShloMosaic.RowGather4

open Idealize.ShloMosaic Idealize.ShloMosaic.ValueIdx

variable {α : Type}

/-- The row gather's dimension numbers for a table `[N, P, Q, R]`, start indices `[B, 1]` and result
    `[B, P, Q, R]`; their conditions `wf` are decided on a program's literal shapes. -/
abbrev rowDims (N B P Q R : Nat)
    (wf : GatherDims.WF ⟨4, ![N, P, Q, R]⟩ ⟨2, ![B, 1]⟩ ⟨4, ![B, P, Q, R]⟩ [1, 2, 3] [0] [] [0] [] 1 ![1, P, Q, R]) :
    GatherDims ⟨4, ![N, P, Q, R]⟩ ⟨2, ![B, 1]⟩ ⟨4, ![B, P, Q, R]⟩ where
  offsetDims := [1, 2, 3]
  collapsedSliceDims := [0]
  operandBatchingDims := []
  startIndicesBatchingDims := []
  startIndexMap := [0]
  indexVectorDim := 1
  sliceSizes := ![1, P, Q, R]
  wf := wf

variable {N B P Q R w : Nat}
  (wf : GatherDims.WF ⟨4, ![N, P, Q, R]⟩ ⟨2, ![B, 1]⟩ ⟨4, ![B, P, Q, R]⟩ [1, 2, 3] [0] [] [0] [] 1 ![1, P, Q, R])

/-- The table's kept axes are 1, 2, 3: axis 0 is collapsed. -/
theorem sKept_eq : (rowDims N B P Q R wf).sKept = [1, 2, 3] := rfl

/-- On axis 0 the operand index is the start index of batch row `b`, read signed and clamped into `[0, N − 1]`:
    the axis is collapsed (no offset) and there is no batching axis. -/
theorem operandIdx_zero (idx : IVec ⟨2, ![B, 1]⟩ w) (b : Fin B) (p : Fin P) (q : Fin Q) (r : Fin R) :
    ((rowDims N B P Q R wf).operandIdx (ix4 b p q r) idx 0).val = min (idx (ix2 b 0)).toInt.toNat (N - 1) := by
  show (rowDims N B P Q R wf).start (ix4 b p q r) idx 0 + (rowDims N B P Q R wf).batchCoord (ix4 b p q r) 0
      + (rowDims N B P Q R wf).offCoord (ix4 b p q r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 4) ∈ (rowDims N B P Q R wf).startIndexMap from List.mem_singleton.mpr rfl)]
  have hsi : (rowDims N B P Q R wf).siIdx (ix4 b p q r) ⟨List.idxOf (0 : Fin 4) (rowDims N B P Q R wf).startIndexMap,
      List.idxOf_lt_length_iff.2 (List.mem_singleton.mpr rfl)⟩ = ix2 b 0 := by
    funext c; refine Fin.ext ?_
    match c with
    | ⟨0, _⟩ => rfl
    | ⟨1, _⟩ => rfl
  rw [hsi]
  rfl

/-- On an offset axis `a` (1, 2 or 3) the operand index is the result's own coordinate there: the start index map
    does not name the axis (start 0) and there is no batching axis. -/
theorem operandIdx_off (idx : IVec ⟨2, ![B, 1]⟩ w) (j : (⟨4, ![B, P, Q, R]⟩ : Shape).Idx) (a : Fin 4) (ha : a ≠ 0) :
    ((rowDims N B P Q R wf).operandIdx j idx a).val = (rowDims N B P Q R wf).offCoord j a := by
  show (rowDims N B P Q R wf).start j idx a + (rowDims N B P Q R wf).batchCoord j a
      + (rowDims N B P Q R wf).offCoord j a = _
  rw [GatherDims.batchCoord_eq_zero _ _ _ List.not_mem_nil]
  unfold GatherDims.start
  rw [dif_neg (show a ∉ (rowDims N B P Q R wf).startIndexMap from fun h => ha (List.mem_singleton.mp h))]
  simp only [Nat.add_zero, Nat.zero_add]

/-- THE ROW GATHER READ AT `(b, p, q, r)`: the table at row `idx[b, 0]` read signed and clamped into `[0, N − 1]`,
    at the same `(p, q, r)`. -/
theorem gather_row_apply (hN : 0 < N) (x : (⟨4, ![N, P, Q, R]⟩ : Shape).Idx → α) (idx : IVec ⟨2, ![B, 1]⟩ w)
    (b : Fin B) (p : Fin P) (q : Fin Q) (r : Fin R) :
    Host.gather (rowDims N B P Q R wf) x idx (ix4 b p q r)
      = x (ix4 ⟨min (idx (ix2 b 0)).toInt.toNat (N - 1), by omega⟩ p q r) := by
  unfold Host.gather
  congr 1
  funext a
  refine Fin.ext ?_
  match a with
  | ⟨0, _⟩ => exact operandIdx_zero wf idx b p q r
  | ⟨1, _⟩ =>
    refine (operandIdx_off wf idx _ 1 (by decide)).trans ?_
    unfold GatherDims.offCoord
    rw [dif_pos (show (1 : Fin 4) ∈ (rowDims N B P Q R wf).sKept from sKept_eq wf ▸ List.mem_cons_self)]
    rfl
  | ⟨2, _⟩ =>
    refine (operandIdx_off wf idx _ 2 (by decide)).trans ?_
    unfold GatherDims.offCoord
    rw [dif_pos (show (2 : Fin 4) ∈ (rowDims N B P Q R wf).sKept from sKept_eq wf ▸ List.mem_cons_of_mem _ List.mem_cons_self)]
    rfl
  | ⟨3, _⟩ =>
    refine (operandIdx_off wf idx _ 3 (by decide)).trans ?_
    unfold GatherDims.offCoord
    rw [dif_pos (show (3 : Fin 4) ∈ (rowDims N B P Q R wf).sKept from sKept_eq wf ▸ List.mem_cons_of_mem _ (List.mem_cons_of_mem _ List.mem_cons_self))]
    rfl

end Idealize.ShloMosaic.RowGather4

end
-- ==== Proof.RefValue.lean ====
/-
  The reference's value at an index, over the extended reals, under the range hypothesis on the index words.

  With every index word below 256 (read unsigned) one `jnp.take` reads the table's row the word names: the word's
  sign bit is clear, so the signed compare with 0 fails and the wrap by `+256` is not taken; the word lies in
  `[0, 255]` as a signed integer, so the in-bounds mask is 1 on every batch row and the fill constant is never
  selected; and the gather's clamp of the start index into `[0, 255]` leaves the word. @main's result is then the
  specification's function `G`.
-/
import proofs.«401894_j30520037605554_2_alg».proof.Proof.RefRun
import proofs.«401894_j30520037605554_2_alg».proof.Proof.LibRowGather4
import proofs.«401894_j30520037605554_2_alg».proof.Proof.Spec
import Idealize.ShloMosaic.Lib.StableHlo.Predicate
import Idealize.ShloMosaic.Lib.ValueIdx

noncomputable section

namespace Cert.ReferenceIdeal.RefValue

open Cert.ReferenceIdeal Cert.ReferenceIdeal.Gen Idealize.ShloMosaic
open Cert.Spec Idealize.ShloMosaic.ValueIdx

/-! ## Words -/

/-- A word below 256 is not negative: the signed compare with 0 answers 0. -/
theorem slt_zero_of_lt {w : BitVec 32} (hw : w.toNat < 256) : IntOp.cmpi .slt w 0#32 = 0#1 :=
  eq_zero_of_ne_one fun e => by
    have := (StableHlo.Predicate.slt_iff_toNat (a := w) (b := 0#32) (by omega) (by decide)).mp e
    simp at this

/-- A word below 256 is at least 0 as a signed integer. -/
theorem sge_zero_of_lt {w : BitVec 32} (hw : w.toNat < 256) : IntOp.cmpi .sge w 0#32 = 1#1 :=
  (StableHlo.Predicate.sge_iff_toNat (a := w) (b := 0#32) (by omega) (by decide)).mpr (Nat.zero_le _)

/-- A word below 256 is at most 255 as a signed integer. -/
theorem sle_255_of_lt {w : BitVec 32} (hw : w.toNat < 256) : IntOp.cmpi .sle w 255#32 = 1#1 :=
  (StableHlo.Predicate.sle_iff_toNat (a := w) (b := 255#32) (by omega) (by decide)).mpr
    (by show w.toNat ≤ 255; omega)

/-- A word below 256, read signed and clamped into `[0, 255]`, is its unsigned value. -/
theorem clamp_of_lt {w : BitVec 32} (hw : w.toNat < 256) : min w.toInt.toNat (256 - 1) = w.toNat := by
  rw [StableHlo.Predicate.toInt_eq_toNat_of_lt (by omega), Int.toNat_natCast]
  omega

/-- An `and`-reduction from `true` of a mask that is `true` everywhere is `true` at every result index: the
    left fold of `and` from 1 over ones. -/
theorem reduce_andi_of_forall {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  unfold Host.reduce
  rw [hinit]
  generalize List.filter _ _ = l
  induction l with
  | nil => rfl
  | cons n l ih => rw [List.foldl_cons, hx, show IntOp.andi 1#1 1#1 = 1#1 from by decide]; exact ih

/-! ## The index vector through @_take -/

variable (idx : IVec S64 32)

/-- In range, no index is wrapped. -/
theorem wrapped_eq (h : InRange idx) : RefRun.wrapped idx = idx := by
  funext j
  show Scalar.select (IntOp.cmpi .slt (idx j) 0#32) (IntOp.addi (idx j) 256#32) (idx j) = idx j
  have hj : (idx j).toNat < 256 := by rw [eq_ix1 j]; exact h (j 0)
  rw [slt_zero_of_lt hj, select_zero]

/-- The column of start indices reads the index vector at the batch row. -/
theorem starts_apply (h : InRange idx) (i : S64x1.Idx) : RefRun.starts idx i = idx (ix1 (i 0)) := by
  unfold RefRun.starts
  rw [wrapped_eq idx h]
  unfold broadcastInDim
  congr 1
  funext a
  match a with
  | ⟨0, _⟩ => rfl

/-- Every start index is below 256. -/
theorem starts_lt (h : InRange idx) (i : S64x1.Idx) : (RefRun.starts idx i).toNat < 256 := by
  rw [starts_apply idx h]; exact h (i 0)

/-- In range, every batch row is in bounds. -/
theorem inBounds_eq (h : InRange idx) (j : S64.Idx) : RefRun.inBounds idx j = 1#1 := by
  unfold RefRun.inBounds
  refine reduce_andi_of_forall _ _ _ _ rfl (fun i => ?_) j
  show IntOp.andi (IntOp.cmpi .sge (RefRun.starts idx i) 0#32) (IntOp.cmpi .sle (RefRun.starts idx i) 255#32) = 1#1
  rw [sge_zero_of_lt (starts_lt idx h i), sle_255_of_lt (starts_lt idx h i)]
  decide

/-! ## The value -/

/-- One `jnp.take` at `(b, p, q, r)`: the table at the row the index word of batch row `b` names. -/
theorem take_apply (x : FVec Ideal S256x32x32x128 .f32) (idx : IVec S64 32) (h : Cert.Spec.InRange idx) (b : Fin 64)
    (p q : Fin 32) (r : Fin 128) :
    RefRun.take (F := Ideal) x idx (ix4 b p q r) = x (ix4 (Cert.Spec.row idx h b) p q r) := by
  unfold RefRun.take
  rw [select_apply]
  have hm : broadcastInDim S64x32x32x128 ![0] bcast_S64_S64x32x32x128_0 (RefRun.inBounds idx) (ix4 b p q r) = 1#1 :=
    inBounds_eq idx h _
  rw [hm, select_one]
  have hg := RowGather4.gather_row_apply (N := 256) (B := 64) (P := 32) (Q := 32) (R := 128)
    gather_S256x32x32x128_S64x1_S64x32x32x128_123_0_n_n_0_1_13232128_wf (by decide) x (RefRun.starts idx) b p q r
  refine hg.trans ?_
  congr 2
  refine Fin.ext ?_
  show min (RefRun.starts idx (ix2 b 0)).toInt.toNat (256 - 1) = (idx (ix1 b)).toNat
  rw [clamp_of_lt (starts_lt idx h _), starts_apply idx h]

/-- @main's result is the specification's function. -/
theorem result_eq (a0 : FVec Ideal S64x32x32x128 .f32) (a1 a2 : FVec Ideal S256x32x32x128 .f32) (a3 : IVec S64 32)
    (h : Cert.Spec.InRange a3) :
    RefRun.result (F := Ideal) a0 a1 a2 a3 = Cert.Spec.G a0 a1 a2 a3 h := by
  funext i
  obtain ⟨b, p, q, r, rfl⟩ : ∃ (b : Fin 64) (p q : Fin 32) (r : Fin 128), i = ix4 b p q r :=
    ⟨i 0, i 1, i 2, i 3, eq_ix4 i⟩
  rw [G_apply]
  unfold RefRun.result
  rw [addf_apply, mulf_apply, take_apply a2 a3 h, take_apply a1 a3 h]

end Cert.ReferenceIdeal.RefValue

end
-- ==== Proof.KernelBlock.lean ====
/-
  What the kernel body leaves in its output block at one grid point, index by index, over the extended reals.

  At grid point `t` (of 8) the body reads, for each `j` below 8, the table word at position `8 t + j`, copies the row of
  the site table and the row of the mask table that word names into row `j` of its two scratch buffers, waits for all
  sixteen copies, and stores `x * mask + site` over the whole block. Read at `(j, p, q, r)`: the input block is the input
  array at batch row `8 t + j`; each scratch buffer, every one of its eight rows having been written once, reads at row
  `j` the row copied there and nothing of what it held before; the row copied is the table's at the word's unsigned value,
  which is below 256. So the block at `(j, p, q, r)` is the specification's function at `(8 t + j, p, q, r)`.
-/
import proofs.«401894_j30520037605554_2_alg».proof.Proof.KernelIdealFrame
import proofs.«401894_j30520037605554_2_alg».proof.Proof.HypsIdeal
import proofs.«401894_j30520037605554_2_alg».proof.Proof.LibRowStack
import proofs.«401894_j30520037605554_2_alg».proof.Proof.Spec
import Idealize.ShloMosaic.Lib.ValueIdx
import Idealize.ShloMosaic.Lib.Pipeline.Value

set_option maxRecDepth 16384

noncomputable section

namespace Cert.KernelIdeal.KVal

open Cert.KernelIdeal Cert.KernelIdeal.Gen Cert.KernelIdeal.GenP Idealize.ShloMosaic.ValueIdx
open Idealize.ShloMosaic Idealize.ShloMosaic.TcCoe Idealize.SL.Sem

variable {F : FTy → Type} [FloatOps F]

/-! ## Words -/

/-- The table position the body computes for row `k` of grid point `n`: `n * 8 + k`, no wrap. -/
theorem pos_toNat (n k : Nat) (hn : n < 8) (hk : k < 8) :
    (Scalar.indexCast (Scalar.addi (Scalar.muli (BitVec.ofNat 32 n) 8#32) (BitVec.ofNat 32 k))).toNat = n * 8 + k := by
  simp only [Scalar.indexCast, Scalar.addi, Scalar.muli, IntOp.addi, IntOp.muli, BitVec.toNat_add, BitVec.toNat_mul,
    BitVec.toNat_ofNat]
  omega

/-- A grid coordinate is below 8. -/
theorem coord_lt (i : grid0.Coords) : (i 0).val < 8 := (i 0).isLt

/-- The table position of row `k` at grid coordinates `i`. -/
abbrev pos (i : grid0.Coords) (k : Fin 8) : Fin 64 := ⟨(i 0).val * 8 + k.val, by have := coord_lt i; omega⟩

/-- The word the body loads for row 0: the table at position `8 n + 0`. -/
theorem word0 (c : Dev nD) (i : grid0.Coords) (xt0 : TbBuf0 (F := F) c tbM0_0) :
    kernelRun0_A.sl.r c i xt0 = xt0 (ix1 (pos i 0)) := by
  show xt0 ((Rect.unit (s := S64) (k0_off1 i) S1.size (k0_off1_inb i)).toLoadRect.idx (Shape.Idx.first (numel1_S1.symm ▸ Nat.one_pos))) = _
  congr 1
  funext a
  match a with
  | ⟨0, _⟩ =>
    apply Fin.ext
    show (Scalar.indexCast (Scalar.addi (Scalar.muli (BitVec.ofNat 32 (i 0).val) 8#32) (BitVec.ofNat 32 0))).toNat + 1 * 0 = (i 0).val * 8 + 0
    rw [pos_toNat _ _ (coord_lt i) (by decide)]

/-- The word the body loads for row 1: the table at position `8 n + 1`. -/
theorem word1 (c : Dev nD) (i : grid0.Coords) (xt0 : TbBuf0 (F := F) c tbM0_0) :
    kernelRun0_A.sl.r_1 c i xt0 = xt0 (ix1 (pos i 1)) := by
  show xt0 ((Rect.unit (s := S64) (k0_off3 i) S1.size (k0_off3_inb i)).toLoadRect.idx (Shape.Idx.first (numel1_S1.symm ▸ Nat.one_pos))) = _
  congr 1
  funext a
  match a with
  | ⟨0, _⟩ =>
    apply Fin.ext
    show (Scalar.indexCast (Scalar.addi (Scalar.muli (BitVec.ofNat 32 (i 0).val) 8#32) (BitVec.ofNat 32 1))).toNat + 1 * 0 = (i 0).val * 8 + 1
    rw [pos_toNat _ _ (coord_lt i) (by decide)]

/-- The word the body loads for row 2: the table at position `8 n + 2`. -/
theorem word2 (c : Dev nD) (i : grid0.Coords) (xt0 : TbBuf0 (F := F) c tbM0_0) :
    kernelRun0_A.sl.r_2 c i xt0 = xt0 (ix1 (pos i 2)) := by
  show xt0 ((Rect.unit (s := S64) (k0_off5 i) S1.size (k0_off5_inb i)).toLoadRect.idx (Shape.Idx.first (numel1_S1.symm ▸ Nat.one_pos))) = _
  congr 1
  funext a
  match a with
  | ⟨0, _⟩ =>
    apply Fin.ext
    show (Scalar.indexCast (Scalar.addi (Scalar.muli (BitVec.ofNat 32 (i 0).val) 8#32) (BitVec.ofNat 32 2))).toNat + 1 * 0 = (i 0).val * 8 + 2
    rw [pos_toNat _ _ (coord_lt i) (by decide)]

/-- The word the body loads for row 3: the table at position `8 n + 3`. -/
theorem word3 (c : Dev nD) (i : grid0.Coords) (xt0 : TbBuf0 (F := F) c tbM0_0) :
    kernelRun0_A.sl.r_3 c i xt0 = xt0 (ix1 (pos i 3)) := by
  show xt0 ((Rect.unit (s := S64) (k0_off7 i) S1.size (k0_off7_inb i)).toLoadRect.idx (Shape.Idx.first (numel1_S1.symm ▸ Nat.one_pos))) = _
  congr 1
  funext a
  match a with
  | ⟨0, _⟩ =>
    apply Fin.ext
    show (Scalar.indexCast (Scalar.addi (Scalar.muli (BitVec.ofNat 32 (i 0).val) 8#32) (BitVec.ofNat 32 3))).toNat + 1 * 0 = (i 0).val * 8 + 3
    rw [pos_toNat _ _ (coord_lt i) (by decide)]

/-- The word the body loads for row 4: the table at position `8 n + 4`. -/
theorem word4 (c : Dev nD) (i : grid0.Coords) (xt0 : TbBuf0 (F := F) c tbM0_0) :
    kernelRun0_A.sl.r_4 c i xt0 = xt0 (ix1 (pos i 4)) := by
  show xt0 ((Rect.unit (s := S64) (k0_off9 i) S1.size (k0_off9_inb i)).toLoadRect.idx (Shape.Idx.first (numel1_S1.symm ▸ Nat.one_pos))) = _
  congr 1
  funext a
  match a with
  | ⟨0, _⟩ =>
    apply Fin.ext
    show (Scalar.indexCast (Scalar.addi (Scalar.muli (BitVec.ofNat 32 (i 0).val) 8#32) (BitVec.ofNat 32 4))).toNat + 1 * 0 = (i 0).val * 8 + 4
    rw [pos_toNat _ _ (coord_lt i) (by decide)]

/-- The word the body loads for row 5: the table at position `8 n + 5`. -/
theorem word5 (c : Dev nD) (i : grid0.Coords) (xt0 : TbBuf0 (F := F) c tbM0_0) :
    kernelRun0_A.sl.r_5 c i xt0 = xt0 (ix1 (pos i 5)) := by
  show xt0 ((Rect.unit (s := S64) (k0_off11 i) S1.size (k0_off11_inb i)).toLoadRect.idx (Shape.Idx.first (numel1_S1.symm ▸ Nat.one_pos))) = _
  congr 1
  funext a
  match a with
  | ⟨0, _⟩ =>
    apply Fin.ext
    show (Scalar.indexCast (Scalar.addi (Scalar.muli (BitVec.ofNat 32 (i 0).val) 8#32) (BitVec.ofNat 32 5))).toNat + 1 * 0 = (i 0).val * 8 + 5
    rw [pos_toNat _ _ (coord_lt i) (by decide)]

/-- The word the body loads for row 6: the table at position `8 n + 6`. -/
theorem word6 (c : Dev nD) (i : grid0.Coords) (xt0 : TbBuf0 (F := F) c tbM0_0) :
    kernelRun0_A.sl.r_6 c i xt0 = xt0 (ix1 (pos i 6)) := by
  show xt0 ((Rect.unit (s := S64) (k0_off13 i) S1.size (k0_off13_inb i)).toLoadRect.idx (Shape.Idx.first (numel1_S1.symm ▸ Nat.one_pos))) = _
  congr 1
  funext a
  match a with
  | ⟨0, _⟩ =>
    apply Fin.ext
    show (Scalar.indexCast (Scalar.addi (Scalar.muli (BitVec.ofNat 32 (i 0).val) 8#32) (BitVec.ofNat 32 6))).toNat + 1 * 0 = (i 0).val * 8 + 6
    rw [pos_toNat _ _ (coord_lt i) (by decide)]

/-- The word the body loads for row 7: the table at position `8 n + 7`. -/
theorem word7 (c : Dev nD) (i : grid0.Coords) (xt0 : TbBuf0 (F := F) c tbM0_0) :
    kernelRun0_A.sl.r_7 c i xt0 = xt0 (ix1 (pos i 7)) := by
  show xt0 ((Rect.unit (s := S64) (k0_off15 i) S1.size (k0_off15_inb i)).toLoadRect.idx (Shape.Idx.first (numel1_S1.symm ▸ Nat.one_pos))) = _
  congr 1
  funext a
  match a with
  | ⟨0, _⟩ =>
    apply Fin.ext
    show (Scalar.indexCast (Scalar.addi (Scalar.muli (BitVec.ofNat 32 (i 0).val) 8#32) (BitVec.ofNat 32 7))).toNat + 1 * 0 = (i 0).val * 8 + 7
    rw [pos_toNat _ _ (coord_lt i) (by decide)]

/-! ## The table rows the copies deliver -/

/-- The mask row copied for row 0: the table's row the word at position `8 n + 0` names. -/
theorem maskRow0 (c : Dev nD) (i : grid0.Coords) (xt0 : TbBuf0 (F := F) c tbM0_0) (fh1 : HbBuf0 (F := F) c hbM0_1)
    (k0_hw1 : k0_chk1 (tbM0_0.view.readAt (Elt F) (Rect.unit (s := S64) (k0_off1 i) S1.size (k0_off1_inb i)).toLoadRect xt0 (Shape.Idx.first (numel1_S1.symm ▸ Nat.one_pos))))
    (hx : (xt0 (ix1 (pos i 0)) : BitVec 32).toNat < 256) (p q : Fin 32) (r : Fin 128) :
    kernelRun0_A.sl.dma1_1 c i xt0 fh1 k0_hw1 (ix3 p q r) = fh1 (ix4 (⟨(xt0 (ix1 (pos i 0)) : BitVec 32).toNat, hx⟩ : Fin 256) p q r) := by
  have hw' : (kernelRun0_A.sl.r c i xt0 : BitVec 32).toNat < 256 := by rw [word0]; exact hx
  unfold kernelRun0_A.sl.dma1_1
  rw [ReadAs.apply_same]
  refine (RowStack.read_row (Val := Elt F) (G := 256) (A := 32) (B := 32) (C := 128) hbM0_1 ⟨(kernelRun0_A.sl.r c i xt0 : BitVec 32).toNat, hw'⟩ _ rfl _ _ _ fh1 p q r).trans ?_
  exact congrArg (fun g : Fin 256 => fh1 (ix4 g p q r)) (Fin.ext (congrArg BitVec.toNat (word0 c i xt0)))

/-- The site row copied for row 0: the table's row the word at position `8 n + 0` names. -/
theorem siteRow0 (c : Dev nD) (i : grid0.Coords) (xt0 : TbBuf0 (F := F) c tbM0_0) (fh0 : HbBuf0 (F := F) c hbM0_0)
    (k0_hw1 : k0_chk1 (tbM0_0.view.readAt (Elt F) (Rect.unit (s := S64) (k0_off1 i) S1.size (k0_off1_inb i)).toLoadRect xt0 (Shape.Idx.first (numel1_S1.symm ▸ Nat.one_pos))))
    (hx : (xt0 (ix1 (pos i 0)) : BitVec 32).toNat < 256) (p q : Fin 32) (r : Fin 128) :
    kernelRun0_A.sl.dma1 c i xt0 fh0 k0_hw1 (ix3 p q r) = fh0 (ix4 (⟨(xt0 (ix1 (pos i 0)) : BitVec 32).toNat, hx⟩ : Fin 256) p q r) := by
  have hw' : (kernelRun0_A.sl.r c i xt0 : BitVec 32).toNat < 256 := by rw [word0]; exact hx
  unfold kernelRun0_A.sl.dma1
  rw [ReadAs.apply_same]
  refine (RowStack.read_row (Val := Elt F) (G := 256) (A := 32) (B := 32) (C := 128) hbM0_0 ⟨(kernelRun0_A.sl.r c i xt0 : BitVec 32).toNat, hw'⟩ _ rfl _ _ _ fh0 p q r).trans ?_
  exact congrArg (fun g : Fin 256 => fh0 (ix4 g p q r)) (Fin.ext (congrArg BitVec.toNat (word0 c i xt0)))

/-- The mask row copied for row 1: the table's row the word at position `8 n + 1` names. -/
theorem maskRow1 (c : Dev nD) (i : grid0.Coords) (xt0 : TbBuf0 (F := F) c tbM0_0) (fh1 : HbBuf0 (F := F) c hbM0_1)
    (k0_hw2 : k0_chk2 (tbM0_0.view.readAt (Elt F) (Rect.unit (s := S64) (k0_off3 i) S1.size (k0_off3_inb i)).toLoadRect xt0 (Shape.Idx.first (numel1_S1.symm ▸ Nat.one_pos))))
    (hx : (xt0 (ix1 (pos i 1)) : BitVec 32).toNat < 256) (p q : Fin 32) (r : Fin 128) :
    kernelRun0_A.sl.dma2_1 c i xt0 fh1 k0_hw2 (ix3 p q r) = fh1 (ix4 (⟨(xt0 (ix1 (pos i 1)) : BitVec 32).toNat, hx⟩ : Fin 256) p q r) := by
  have hw' : (kernelRun0_A.sl.r_1 c i xt0 : BitVec 32).toNat < 256 := by rw [word1]; exact hx
  unfold kernelRun0_A.sl.dma2_1
  rw [ReadAs.apply_same]
  refine (RowStack.read_row (Val := Elt F) (G := 256) (A := 32) (B := 32) (C := 128) hbM0_1 ⟨(kernelRun0_A.sl.r_1 c i xt0 : BitVec 32).toNat, hw'⟩ _ rfl _ _ _ fh1 p q r).trans ?_
  exact congrArg (fun g : Fin 256 => fh1 (ix4 g p q r)) (Fin.ext (congrArg BitVec.toNat (word1 c i xt0)))

/-- The site row copied for row 1: the table's row the word at position `8 n + 1` names. -/
theorem siteRow1 (c : Dev nD) (i : grid0.Coords) (xt0 : TbBuf0 (F := F) c tbM0_0) (fh0 : HbBuf0 (F := F) c hbM0_0)
    (k0_hw2 : k0_chk2 (tbM0_0.view.readAt (Elt F) (Rect.unit (s := S64) (k0_off3 i) S1.size (k0_off3_inb i)).toLoadRect xt0 (Shape.Idx.first (numel1_S1.symm ▸ Nat.one_pos))))
    (hx : (xt0 (ix1 (pos i 1)) : BitVec 32).toNat < 256) (p q : Fin 32) (r : Fin 128) :
    kernelRun0_A.sl.dma2 c i xt0 fh0 k0_hw2 (ix3 p q r) = fh0 (ix4 (⟨(xt0 (ix1 (pos i 1)) : BitVec 32).toNat, hx⟩ : Fin 256) p q r) := by
  have hw' : (kernelRun0_A.sl.r_1 c i xt0 : BitVec 32).toNat < 256 := by rw [word1]; exact hx
  unfold kernelRun0_A.sl.dma2
  rw [ReadAs.apply_same]
  refine (RowStack.read_row (Val := Elt F) (G := 256) (A := 32) (B := 32) (C := 128) hbM0_0 ⟨(kernelRun0_A.sl.r_1 c i xt0 : BitVec 32).toNat, hw'⟩ _ rfl _ _ _ fh0 p q r).trans ?_
  exact congrArg (fun g : Fin 256 => fh0 (ix4 g p q r)) (Fin.ext (congrArg BitVec.toNat (word1 c i xt0)))

/-- The mask row copied for row 2: the table's row the word at position `8 n + 2` names. -/
theorem maskRow2 (c : Dev nD) (i : grid0.Coords) (xt0 : TbBuf0 (F := F) c tbM0_0) (fh1 : HbBuf0 (F := F) c hbM0_1)
    (k0_hw3 : k0_chk3 (tbM0_0.view.readAt (Elt F) (Rect.unit (s := S64) (k0_off5 i) S1.size (k0_off5_inb i)).toLoadRect xt0 (Shape.Idx.first (numel1_S1.symm ▸ Nat.one_pos))))
    (hx : (xt0 (ix1 (pos i 2)) : BitVec 32).toNat < 256) (p q : Fin 32) (r : Fin 128) :
    kernelRun0_A.sl.dma3_1 c i xt0 fh1 k0_hw3 (ix3 p q r) = fh1 (ix4 (⟨(xt0 (ix1 (pos i 2)) : BitVec 32).toNat, hx⟩ : Fin 256) p q r) := by
  have hw' : (kernelRun0_A.sl.r_2 c i xt0 : BitVec 32).toNat < 256 := by rw [word2]; exact hx
  unfold kernelRun0_A.sl.dma3_1
  rw [ReadAs.apply_same]
  refine (RowStack.read_row (Val := Elt F) (G := 256) (A := 32) (B := 32) (C := 128) hbM0_1 ⟨(kernelRun0_A.sl.r_2 c i xt0 : BitVec 32).toNat, hw'⟩ _ rfl _ _ _ fh1 p q r).trans ?_
  exact congrArg (fun g : Fin 256 => fh1 (ix4 g p q r)) (Fin.ext (congrArg BitVec.toNat (word2 c i xt0)))

/-- The site row copied for row 2: the table's row the word at position `8 n + 2` names. -/
theorem siteRow2 (c : Dev nD) (i : grid0.Coords) (xt0 : TbBuf0 (F := F) c tbM0_0) (fh0 : HbBuf0 (F := F) c hbM0_0)
    (k0_hw3 : k0_chk3 (tbM0_0.view.readAt (Elt F) (Rect.unit (s := S64) (k0_off5 i) S1.size (k0_off5_inb i)).toLoadRect xt0 (Shape.Idx.first (numel1_S1.symm ▸ Nat.one_pos))))
    (hx : (xt0 (ix1 (pos i 2)) : BitVec 32).toNat < 256) (p q : Fin 32) (r : Fin 128) :
    kernelRun0_A.sl.dma3 c i xt0 fh0 k0_hw3 (ix3 p q r) = fh0 (ix4 (⟨(xt0 (ix1 (pos i 2)) : BitVec 32).toNat, hx⟩ : Fin 256) p q r) := by
  have hw' : (kernelRun0_A.sl.r_2 c i xt0 : BitVec 32).toNat < 256 := by rw [word2]; exact hx
  unfold kernelRun0_A.sl.dma3
  rw [ReadAs.apply_same]
  refine (RowStack.read_row (Val := Elt F) (G := 256) (A := 32) (B := 32) (C := 128) hbM0_0 ⟨(kernelRun0_A.sl.r_2 c i xt0 : BitVec 32).toNat, hw'⟩ _ rfl _ _ _ fh0 p q r).trans ?_
  exact congrArg (fun g : Fin 256 => fh0 (ix4 g p q r)) (Fin.ext (congrArg BitVec.toNat (word2 c i xt0)))

/-- The mask row copied for row 3: the table's row the word at position `8 n + 3` names. -/
theorem maskRow3 (c : Dev nD) (i : grid0.Coords) (xt0 : TbBuf0 (F := F) c tbM0_0) (fh1 : HbBuf0 (F := F) c hbM0_1)
    (k0_hw4 : k0_chk4 (tbM0_0.view.readAt (Elt F) (Rect.unit (s := S64) (k0_off7 i) S1.size (k0_off7_inb i)).toLoadRect xt0 (Shape.Idx.first (numel1_S1.symm ▸ Nat.one_pos))))
    (hx : (xt0 (ix1 (pos i 3)) : BitVec 32).toNat < 256) (p q : Fin 32) (r : Fin 128) :
    kernelRun0_A.sl.dma4_1 c i xt0 fh1 k0_hw4 (ix3 p q r) = fh1 (ix4 (⟨(xt0 (ix1 (pos i 3)) : BitVec 32).toNat, hx⟩ : Fin 256) p q r) := by
  have hw' : (kernelRun0_A.sl.r_3 c i xt0 : BitVec 32).toNat < 256 := by rw [word3]; exact hx
  unfold kernelRun0_A.sl.dma4_1
  rw [ReadAs.apply_same]
  refine (RowStack.read_row (Val := Elt F) (G := 256) (A := 32) (B := 32) (C := 128) hbM0_1 ⟨(kernelRun0_A.sl.r_3 c i xt0 : BitVec 32).toNat, hw'⟩ _ rfl _ _ _ fh1 p q r).trans ?_
  exact congrArg (fun g : Fin 256 => fh1 (ix4 g p q r)) (Fin.ext (congrArg BitVec.toNat (word3 c i xt0)))

/-- The site row copied for row 3: the table's row the word at position `8 n + 3` names. -/
theorem siteRow3 (c : Dev nD) (i : grid0.Coords) (xt0 : TbBuf0 (F := F) c tbM0_0) (fh0 : HbBuf0 (F := F) c hbM0_0)
    (k0_hw4 : k0_chk4 (tbM0_0.view.readAt (Elt F) (Rect.unit (s := S64) (k0_off7 i) S1.size (k0_off7_inb i)).toLoadRect xt0 (Shape.Idx.first (numel1_S1.symm ▸ Nat.one_pos))))
    (hx : (xt0 (ix1 (pos i 3)) : BitVec 32).toNat < 256) (p q : Fin 32) (r : Fin 128) :
    kernelRun0_A.sl.dma4 c i xt0 fh0 k0_hw4 (ix3 p q r) = fh0 (ix4 (⟨(xt0 (ix1 (pos i 3)) : BitVec 32).toNat, hx⟩ : Fin 256) p q r) := by
  have hw' : (kernelRun0_A.sl.r_3 c i xt0 : BitVec 32).toNat < 256 := by rw [word3]; exact hx
  unfold kernelRun0_A.sl.dma4
  rw [ReadAs.apply_same]
  refine (RowStack.read_row (Val := Elt F) (G := 256) (A := 32) (B := 32) (C := 128) hbM0_0 ⟨(kernelRun0_A.sl.r_3 c i xt0 : BitVec 32).toNat, hw'⟩ _ rfl _ _ _ fh0 p q r).trans ?_
  exact congrArg (fun g : Fin 256 => fh0 (ix4 g p q r)) (Fin.ext (congrArg BitVec.toNat (word3 c i xt0)))

/-- The mask row copied for row 4: the table's row the word at position `8 n + 4` names. -/
theorem maskRow4 (c : Dev nD) (i : grid0.Coords) (xt0 : TbBuf0 (F := F) c tbM0_0) (fh1 : HbBuf0 (F := F) c hbM0_1)
    (k0_hw5 : k0_chk5 (tbM0_0.view.readAt (Elt F) (Rect.unit (s := S64) (k0_off9 i) S1.size (k0_off9_inb i)).toLoadRect xt0 (Shape.Idx.first (numel1_S1.symm ▸ Nat.one_pos))))
    (hx : (xt0 (ix1 (pos i 4)) : BitVec 32).toNat < 256) (p q : Fin 32) (r : Fin 128) :
    kernelRun0_A.sl.dma5_1 c i xt0 fh1 k0_hw5 (ix3 p q r) = fh1 (ix4 (⟨(xt0 (ix1 (pos i 4)) : BitVec 32).toNat, hx⟩ : Fin 256) p q r) := by
  have hw' : (kernelRun0_A.sl.r_4 c i xt0 : BitVec 32).toNat < 256 := by rw [word4]; exact hx
  unfold kernelRun0_A.sl.dma5_1
  rw [ReadAs.apply_same]
  refine (RowStack.read_row (Val := Elt F) (G := 256) (A := 32) (B := 32) (C := 128) hbM0_1 ⟨(kernelRun0_A.sl.r_4 c i xt0 : BitVec 32).toNat, hw'⟩ _ rfl _ _ _ fh1 p q r).trans ?_
  exact congrArg (fun g : Fin 256 => fh1 (ix4 g p q r)) (Fin.ext (congrArg BitVec.toNat (word4 c i xt0)))

/-- The site row copied for row 4: the table's row the word at position `8 n + 4` names. -/
theorem siteRow4 (c : Dev nD) (i : grid0.Coords) (xt0 : TbBuf0 (F := F) c tbM0_0) (fh0 : HbBuf0 (F := F) c hbM0_0)
    (k0_hw5 : k0_chk5 (tbM0_0.view.readAt (Elt F) (Rect.unit (s := S64) (k0_off9 i) S1.size (k0_off9_inb i)).toLoadRect xt0 (Shape.Idx.first (numel1_S1.symm ▸ Nat.one_pos))))
    (hx : (xt0 (ix1 (pos i 4)) : BitVec 32).toNat < 256) (p q : Fin 32) (r : Fin 128) :
    kernelRun0_A.sl.dma5 c i xt0 fh0 k0_hw5 (ix3 p q r) = fh0 (ix4 (⟨(xt0 (ix1 (pos i 4)) : BitVec 32).toNat, hx⟩ : Fin 256) p q r) := by
  have hw' : (kernelRun0_A.sl.r_4 c i xt0 : BitVec 32).toNat < 256 := by rw [word4]; exact hx
  unfold kernelRun0_A.sl.dma5
  rw [ReadAs.apply_same]
  refine (RowStack.read_row (Val := Elt F) (G := 256) (A := 32) (B := 32) (C := 128) hbM0_0 ⟨(kernelRun0_A.sl.r_4 c i xt0 : BitVec 32).toNat, hw'⟩ _ rfl _ _ _ fh0 p q r).trans ?_
  exact congrArg (fun g : Fin 256 => fh0 (ix4 g p q r)) (Fin.ext (congrArg BitVec.toNat (word4 c i xt0)))

/-- The mask row copied for row 5: the table's row the word at position `8 n + 5` names. -/
theorem maskRow5 (c : Dev nD) (i : grid0.Coords) (xt0 : TbBuf0 (F := F) c tbM0_0) (fh1 : HbBuf0 (F := F) c hbM0_1)
    (k0_hw6 : k0_chk6 (tbM0_0.view.readAt (Elt F) (Rect.unit (s := S64) (k0_off11 i) S1.size (k0_off11_inb i)).toLoadRect xt0 (Shape.Idx.first (numel1_S1.symm ▸ Nat.one_pos))))
    (hx : (xt0 (ix1 (pos i 5)) : BitVec 32).toNat < 256) (p q : Fin 32) (r : Fin 128) :
    kernelRun0_A.sl.dma6_1 c i xt0 fh1 k0_hw6 (ix3 p q r) = fh1 (ix4 (⟨(xt0 (ix1 (pos i 5)) : BitVec 32).toNat, hx⟩ : Fin 256) p q r) := by
  have hw' : (kernelRun0_A.sl.r_5 c i xt0 : BitVec 32).toNat < 256 := by rw [word5]; exact hx
  unfold kernelRun0_A.sl.dma6_1
  rw [ReadAs.apply_same]
  refine (RowStack.read_row (Val := Elt F) (G := 256) (A := 32) (B := 32) (C := 128) hbM0_1 ⟨(kernelRun0_A.sl.r_5 c i xt0 : BitVec 32).toNat, hw'⟩ _ rfl _ _ _ fh1 p q r).trans ?_
  exact congrArg (fun g : Fin 256 => fh1 (ix4 g p q r)) (Fin.ext (congrArg BitVec.toNat (word5 c i xt0)))

/-- The site row copied for row 5: the table's row the word at position `8 n + 5` names. -/
theorem siteRow5 (c : Dev nD) (i : grid0.Coords) (xt0 : TbBuf0 (F := F) c tbM0_0) (fh0 : HbBuf0 (F := F) c hbM0_0)
    (k0_hw6 : k0_chk6 (tbM0_0.view.readAt (Elt F) (Rect.unit (s := S64) (k0_off11 i) S1.size (k0_off11_inb i)).toLoadRect xt0 (Shape.Idx.first (numel1_S1.symm ▸ Nat.one_pos))))
    (hx : (xt0 (ix1 (pos i 5)) : BitVec 32).toNat < 256) (p q : Fin 32) (r : Fin 128) :
    kernelRun0_A.sl.dma6 c i xt0 fh0 k0_hw6 (ix3 p q r) = fh0 (ix4 (⟨(xt0 (ix1 (pos i 5)) : BitVec 32).toNat, hx⟩ : Fin 256) p q r) := by
  have hw' : (kernelRun0_A.sl.r_5 c i xt0 : BitVec 32).toNat < 256 := by rw [word5]; exact hx
  unfold kernelRun0_A.sl.dma6
  rw [ReadAs.apply_same]
  refine (RowStack.read_row (Val := Elt F) (G := 256) (A := 32) (B := 32) (C := 128) hbM0_0 ⟨(kernelRun0_A.sl.r_5 c i xt0 : BitVec 32).toNat, hw'⟩ _ rfl _ _ _ fh0 p q r).trans ?_
  exact congrArg (fun g : Fin 256 => fh0 (ix4 g p q r)) (Fin.ext (congrArg BitVec.toNat (word5 c i xt0)))

/-- The mask row copied for row 6: the table's row the word at position `8 n + 6` names. -/
theorem maskRow6 (c : Dev nD) (i : grid0.Coords) (xt0 : TbBuf0 (F := F) c tbM0_0) (fh1 : HbBuf0 (F := F) c hbM0_1)
    (k0_hw7 : k0_chk7 (tbM0_0.view.readAt (Elt F) (Rect.unit (s := S64) (k0_off13 i) S1.size (k0_off13_inb i)).toLoadRect xt0 (Shape.Idx.first (numel1_S1.symm ▸ Nat.one_pos))))
    (hx : (xt0 (ix1 (pos i 6)) : BitVec 32).toNat < 256) (p q : Fin 32) (r : Fin 128) :
    kernelRun0_A.sl.dma7_1 c i xt0 fh1 k0_hw7 (ix3 p q r) = fh1 (ix4 (⟨(xt0 (ix1 (pos i 6)) : BitVec 32).toNat, hx⟩ : Fin 256) p q r) := by
  have hw' : (kernelRun0_A.sl.r_6 c i xt0 : BitVec 32).toNat < 256 := by rw [word6]; exact hx
  unfold kernelRun0_A.sl.dma7_1
  rw [ReadAs.apply_same]
  refine (RowStack.read_row (Val := Elt F) (G := 256) (A := 32) (B := 32) (C := 128) hbM0_1 ⟨(kernelRun0_A.sl.r_6 c i xt0 : BitVec 32).toNat, hw'⟩ _ rfl _ _ _ fh1 p q r).trans ?_
  exact congrArg (fun g : Fin 256 => fh1 (ix4 g p q r)) (Fin.ext (congrArg BitVec.toNat (word6 c i xt0)))

/-- The site row copied for row 6: the table's row the word at position `8 n + 6` names. -/
theorem siteRow6 (c : Dev nD) (i : grid0.Coords) (xt0 : TbBuf0 (F := F) c tbM0_0) (fh0 : HbBuf0 (F := F) c hbM0_0)
    (k0_hw7 : k0_chk7 (tbM0_0.view.readAt (Elt F) (Rect.unit (s := S64) (k0_off13 i) S1.size (k0_off13_inb i)).toLoadRect xt0 (Shape.Idx.first (numel1_S1.symm ▸ Nat.one_pos))))
    (hx : (xt0 (ix1 (pos i 6)) : BitVec 32).toNat < 256) (p q : Fin 32) (r : Fin 128) :
    kernelRun0_A.sl.dma7 c i xt0 fh0 k0_hw7 (ix3 p q r) = fh0 (ix4 (⟨(xt0 (ix1 (pos i 6)) : BitVec 32).toNat, hx⟩ : Fin 256) p q r) := by
  have hw' : (kernelRun0_A.sl.r_6 c i xt0 : BitVec 32).toNat < 256 := by rw [word6]; exact hx
  unfold kernelRun0_A.sl.dma7
  rw [ReadAs.apply_same]
  refine (RowStack.read_row (Val := Elt F) (G := 256) (A := 32) (B := 32) (C := 128) hbM0_0 ⟨(kernelRun0_A.sl.r_6 c i xt0 : BitVec 32).toNat, hw'⟩ _ rfl _ _ _ fh0 p q r).trans ?_
  exact congrArg (fun g : Fin 256 => fh0 (ix4 g p q r)) (Fin.ext (congrArg BitVec.toNat (word6 c i xt0)))

/-- The mask row copied for row 7: the table's row the word at position `8 n + 7` names. -/
theorem maskRow7 (c : Dev nD) (i : grid0.Coords) (xt0 : TbBuf0 (F := F) c tbM0_0) (fh1 : HbBuf0 (F := F) c hbM0_1)
    (k0_hw8 : k0_chk8 (tbM0_0.view.readAt (Elt F) (Rect.unit (s := S64) (k0_off15 i) S1.size (k0_off15_inb i)).toLoadRect xt0 (Shape.Idx.first (numel1_S1.symm ▸ Nat.one_pos))))
    (hx : (xt0 (ix1 (pos i 7)) : BitVec 32).toNat < 256) (p q : Fin 32) (r : Fin 128) :
    kernelRun0_A.sl.dma8_1 c i xt0 fh1 k0_hw8 (ix3 p q r) = fh1 (ix4 (⟨(xt0 (ix1 (pos i 7)) : BitVec 32).toNat, hx⟩ : Fin 256) p q r) := by
  have hw' : (kernelRun0_A.sl.r_7 c i xt0 : BitVec 32).toNat < 256 := by rw [word7]; exact hx
  unfold kernelRun0_A.sl.dma8_1
  rw [ReadAs.apply_same]
  refine (RowStack.read_row (Val := Elt F) (G := 256) (A := 32) (B := 32) (C := 128) hbM0_1 ⟨(kernelRun0_A.sl.r_7 c i xt0 : BitVec 32).toNat, hw'⟩ _ rfl _ _ _ fh1 p q r).trans ?_
  exact congrArg (fun g : Fin 256 => fh1 (ix4 g p q r)) (Fin.ext (congrArg BitVec.toNat (word7 c i xt0)))

/-- The site row copied for row 7: the table's row the word at position `8 n + 7` names. -/
theorem siteRow7 (c : Dev nD) (i : grid0.Coords) (xt0 : TbBuf0 (F := F) c tbM0_0) (fh0 : HbBuf0 (F := F) c hbM0_0)
    (k0_hw8 : k0_chk8 (tbM0_0.view.readAt (Elt F) (Rect.unit (s := S64) (k0_off15 i) S1.size (k0_off15_inb i)).toLoadRect xt0 (Shape.Idx.first (numel1_S1.symm ▸ Nat.one_pos))))
    (hx : (xt0 (ix1 (pos i 7)) : BitVec 32).toNat < 256) (p q : Fin 32) (r : Fin 128) :
    kernelRun0_A.sl.dma8 c i xt0 fh0 k0_hw8 (ix3 p q r) = fh0 (ix4 (⟨(xt0 (ix1 (pos i 7)) : BitVec 32).toNat, hx⟩ : Fin 256) p q r) := by
  have hw' : (kernelRun0_A.sl.r_7 c i xt0 : BitVec 32).toNat < 256 := by rw [word7]; exact hx
  unfold kernelRun0_A.sl.dma8
  rw [ReadAs.apply_same]
  refine (RowStack.read_row (Val := Elt F) (G := 256) (A := 32) (B := 32) (C := 128) hbM0_0 ⟨(kernelRun0_A.sl.r_7 c i xt0 : BitVec 32).toNat, hw'⟩ _ rfl _ _ _ fh0 p q r).trans ?_
  exact congrArg (fun g : Fin 256 => fh0 (ix4 g p q r)) (Fin.ext (congrArg BitVec.toNat (word7 c i xt0)))

/-! ## The scratch buffers after the sixteen copies -/

theorem hz : (![0, 0, 0, 0] : Fin 4 → Nat) = fun _ => 0 := funext fun a => by fin_cases a <;> rfl

/-- The mask scratch read whole after the eight row copies: at `(j, p, q, r)` the row copied for row `j`. -/
theorem maskScratch_apply (c : Dev nD) (i : grid0.Coords) (arg7 : Memref sig .tc .vmem S8x32x32x128 .f32)
    (xt0 : TbBuf0 (F := F) c tbM0_0) (fh1 : HbBuf0 (F := F) c hbM0_1)
    (k0_hw1 : k0_chk1 (tbM0_0.view.readAt (Elt F) (Rect.unit (s := S64) (k0_off1 i) S1.size (k0_off1_inb i)).toLoadRect xt0 (Shape.Idx.first (numel1_S1.symm ▸ Nat.one_pos))))
    (k0_hw2 : k0_chk2 (tbM0_0.view.readAt (Elt F) (Rect.unit (s := S64) (k0_off3 i) S1.size (k0_off3_inb i)).toLoadRect xt0 (Shape.Idx.first (numel1_S1.symm ▸ Nat.one_pos))))
    (k0_hw3 : k0_chk3 (tbM0_0.view.readAt (Elt F) (Rect.unit (s := S64) (k0_off5 i) S1.size (k0_off5_inb i)).toLoadRect xt0 (Shape.Idx.first (numel1_S1.symm ▸ Nat.one_pos))))
    (k0_hw4 : k0_chk4 (tbM0_0.view.readAt (Elt F) (Rect.unit (s := S64) (k0_off7 i) S1.size (k0_off7_inb i)).toLoadRect xt0 (Shape.Idx.first (numel1_S1.symm ▸ Nat.one_pos))))
    (k0_hw5 : k0_chk5 (tbM0_0.view.readAt (Elt F) (Rect.unit (s := S64) (k0_off9 i) S1.size (k0_off9_inb i)).toLoadRect xt0 (Shape.Idx.first (numel1_S1.symm ▸ Nat.one_pos))))
    (k0_hw6 : k0_chk6 (tbM0_0.view.readAt (Elt F) (Rect.unit (s := S64) (k0_off11 i) S1.size (k0_off11_inb i)).toLoadRect xt0 (Shape.Idx.first (numel1_S1.symm ▸ Nat.one_pos))))
    (k0_hw7 : k0_chk7 (tbM0_0.view.readAt (Elt F) (Rect.unit (s := S64) (k0_off13 i) S1.size (k0_off13_inb i)).toLoadRect xt0 (Shape.Idx.first (numel1_S1.symm ▸ Nat.one_pos))))
    (k0_hw8 : k0_chk8 (tbM0_0.view.readAt (Elt F) (Rect.unit (s := S64) (k0_off15 i) S1.size (k0_off15_inb i)).toLoadRect xt0 (Shape.Idx.first (numel1_S1.symm ▸ Nat.one_pos))))
    (f : BufTy.Contents (Elt F) arg7.view.ty) (j : Fin 8) (p q : Fin 32) (r : Fin 128) :
    kernelRun0_A.sl.v225 c i arg7 xt0 fh1 k0_hw1 k0_hw2 k0_hw3 k0_hw4 k0_hw5 k0_hw6 k0_hw7 k0_hw8 f (ix4 j p q r)
      = RowStack.sel8 (kernelRun0_A.sl.dma1_1 c i xt0 fh1 k0_hw1) (kernelRun0_A.sl.dma2_1 c i xt0 fh1 k0_hw2) (kernelRun0_A.sl.dma3_1 c i xt0 fh1 k0_hw3) (kernelRun0_A.sl.dma4_1 c i xt0 fh1 k0_hw4) (kernelRun0_A.sl.dma5_1 c i xt0 fh1 k0_hw5) (kernelRun0_A.sl.dma6_1 c i xt0 fh1 k0_hw6) (kernelRun0_A.sl.dma7_1 c i xt0 fh1 k0_hw7) (kernelRun0_A.sl.dma8_1 c i xt0 fh1 k0_hw8) j (ix3 p q r) := by
  unfold kernelRun0_A.sl.v225
  rw [View.readAt_eq_ld, View.ld_unit_zero (S := S8x32x32x128) hz]
  exact RowStack.read_rows8 (Val := Elt F) arg7 _ _ _ _ _ _ _ _ rfl rfl rfl rfl rfl rfl rfl rfl _ _ _ _ _ _ _ _ _ _ _ _ _ _ _ _ _ f _ _ _ _ _ _ _ _ j p q r

/-- The site scratch likewise. -/
theorem siteScratch_apply (c : Dev nD) (i : grid0.Coords) (arg6 : Memref sig .tc .vmem S8x32x32x128 .f32)
    (xt0 : TbBuf0 (F := F) c tbM0_0) (fh0 : HbBuf0 (F := F) c hbM0_0)
    (k0_hw1 : k0_chk1 (tbM0_0.view.readAt (Elt F) (Rect.unit (s := S64) (k0_off1 i) S1.size (k0_off1_inb i)).toLoadRect xt0 (Shape.Idx.first (numel1_S1.symm ▸ Nat.one_pos))))
    (k0_hw2 : k0_chk2 (tbM0_0.view.readAt (Elt F) (Rect.unit (s := S64) (k0_off3 i) S1.size (k0_off3_inb i)).toLoadRect xt0 (Shape.Idx.first (numel1_S1.symm ▸ Nat.one_pos))))
    (k0_hw3 : k0_chk3 (tbM0_0.view.readAt (Elt F) (Rect.unit (s := S64) (k0_off5 i) S1.size (k0_off5_inb i)).toLoadRect xt0 (Shape.Idx.first (numel1_S1.symm ▸ Nat.one_pos))))
    (k0_hw4 : k0_chk4 (tbM0_0.view.readAt (Elt F) (Rect.unit (s := S64) (k0_off7 i) S1.size (k0_off7_inb i)).toLoadRect xt0 (Shape.Idx.first (numel1_S1.symm ▸ Nat.one_pos))))
    (k0_hw5 : k0_chk5 (tbM0_0.view.readAt (Elt F) (Rect.unit (s := S64) (k0_off9 i) S1.size (k0_off9_inb i)).toLoadRect xt0 (Shape.Idx.first (numel1_S1.symm ▸ Nat.one_pos))))
    (k0_hw6 : k0_chk6 (tbM0_0.view.readAt (Elt F) (Rect.unit (s := S64) (k0_off11 i) S1.size (k0_off11_inb i)).toLoadRect xt0 (Shape.Idx.first (numel1_S1.symm ▸ Nat.one_pos))))
    (k0_hw7 : k0_chk7 (tbM0_0.view.readAt (Elt F) (Rect.unit (s := S64) (k0_off13 i) S1.size (k0_off13_inb i)).toLoadRect xt0 (Shape.Idx.first (numel1_S1.symm ▸ Nat.one_pos))))
    (k0_hw8 : k0_chk8 (tbM0_0.view.readAt (Elt F) (Rect.unit (s := S64) (k0_off15 i) S1.size (k0_off15_inb i)).toLoadRect xt0 (Shape.Idx.first (numel1_S1.symm ▸ Nat.one_pos))))
    (f : BufTy.Contents (Elt F) arg6.view.ty) (j : Fin 8) (p q : Fin 32) (r : Fin 128) :
    kernelRun0_A.sl.v227 c i arg6 xt0 fh0 k0_hw1 k0_hw2 k0_hw3 k0_hw4 k0_hw5 k0_hw6 k0_hw7 k0_hw8 f (ix4 j p q r)
      = RowStack.sel8 (kernelRun0_A.sl.dma1 c i xt0 fh0 k0_hw1) (kernelRun0_A.sl.dma2 c i xt0 fh0 k0_hw2) (kernelRun0_A.sl.dma3 c i xt0 fh0 k0_hw3) (kernelRun0_A.sl.dma4 c i xt0 fh0 k0_hw4) (kernelRun0_A.sl.dma5 c i xt0 fh0 k0_hw5) (kernelRun0_A.sl.dma6 c i xt0 fh0 k0_hw6) (kernelRun0_A.sl.dma7 c i xt0 fh0 k0_hw7) (kernelRun0_A.sl.dma8 c i xt0 fh0 k0_hw8) j (ix3 p q r) := by
  unfold kernelRun0_A.sl.v227
  rw [View.readAt_eq_ld, View.ld_unit_zero (S := S8x32x32x128) hz]
  exact RowStack.read_rows8 (Val := Elt F) arg6 _ _ _ _ _ _ _ _ rfl rfl rfl rfl rfl rfl rfl rfl _ _ _ _ _ _ _ _ _ _ _ _ _ _ _ _ _ f _ _ _ _ _ _ _ _ j p q r

/-- The input block as loaded: the block itself. -/
theorem input_eq (c : Dev nD) (arg2 : Memref sig .tc .vmem S8x32x32x128 .f32) (harg2 : arg2.IsWhole) (x0 : Vec F S8x32x32x128 .f32) :
    kernelRun0_A.sl.v224 c arg2 harg2 x0 = x0 := by
  unfold kernelRun0_A.sl.v224
  rw [View.readAt_eq_ld, harg2.read_unread, View.ld_unit_zero (S := S8x32x32x128) hz]

/-! ## What the body leaves in the output block -/

/-- The output block after the body: the one store's payload, the product-and-sum of the input block and the two scratch
    buffers as loaded. -/
theorem out_eq (c : Dev nD) (i : grid0.Coords) (arg2 : Memref sig .tc .vmem S8x32x32x128 .f32) (harg2 : arg2.IsWhole) (arg5 : Memref sig .tc .vmem S8x32x32x128 .f32) (harg5 : arg5.IsWhole) (arg6 : Memref sig .tc .vmem S8x32x32x128 .f32) (harg6 : arg6.IsWhole) (arg7 : Memref sig .tc .vmem S8x32x32x128 .f32) (harg7 : arg7.IsWhole)
    (x0 : Vec F S8x32x32x128 .f32) (xt0 : TbBuf0 (F := F) c tbM0_0) (fh0 : HbBuf0 (F := F) c hbM0_0) (fh1 : HbBuf0 (F := F) c hbM0_1)
    (k0_hw1 : k0_chk1 (tbM0_0.view.readAt (Elt F) (Rect.unit (s := S64) (k0_off1 i) S1.size (k0_off1_inb i)).toLoadRect xt0 (Shape.Idx.first (numel1_S1.symm ▸ Nat.one_pos))))
    (k0_hw2 : k0_chk2 (tbM0_0.view.readAt (Elt F) (Rect.unit (s := S64) (k0_off3 i) S1.size (k0_off3_inb i)).toLoadRect xt0 (Shape.Idx.first (numel1_S1.symm ▸ Nat.one_pos))))
    (k0_hw3 : k0_chk3 (tbM0_0.view.readAt (Elt F) (Rect.unit (s := S64) (k0_off5 i) S1.size (k0_off5_inb i)).toLoadRect xt0 (Shape.Idx.first (numel1_S1.symm ▸ Nat.one_pos))))
    (k0_hw4 : k0_chk4 (tbM0_0.view.readAt (Elt F) (Rect.unit (s := S64) (k0_off7 i) S1.size (k0_off7_inb i)).toLoadRect xt0 (Shape.Idx.first (numel1_S1.symm ▸ Nat.one_pos))))
    (k0_hw5 : k0_chk5 (tbM0_0.view.readAt (Elt F) (Rect.unit (s := S64) (k0_off9 i) S1.size (k0_off9_inb i)).toLoadRect xt0 (Shape.Idx.first (numel1_S1.symm ▸ Nat.one_pos))))
    (k0_hw6 : k0_chk6 (tbM0_0.view.readAt (Elt F) (Rect.unit (s := S64) (k0_off11 i) S1.size (k0_off11_inb i)).toLoadRect xt0 (Shape.Idx.first (numel1_S1.symm ▸ Nat.one_pos))))
    (k0_hw7 : k0_chk7 (tbM0_0.view.readAt (Elt F) (Rect.unit (s := S64) (k0_off13 i) S1.size (k0_off13_inb i)).toLoadRect xt0 (Shape.Idx.first (numel1_S1.symm ▸ Nat.one_pos))))
    (k0_hw8 : k0_chk8 (tbM0_0.view.readAt (Elt F) (Rect.unit (s := S64) (k0_off15 i) S1.size (k0_off15_inb i)).toLoadRect xt0 (Shape.Idx.first (numel1_S1.symm ▸ Nat.one_pos)))) :
    out0_A_1 c i arg2 harg2 arg5 harg5 arg6 harg6 arg7 harg7 x0 xt0 fh0 fh1 k0_hw1 k0_hw2 k0_hw3 k0_hw4 k0_hw5 k0_hw6 k0_hw7 k0_hw8
      = k0_pay1 x0 (kernelRun0_A.sl.v225 c i arg7 xt0 fh1 k0_hw1 k0_hw2 k0_hw3 k0_hw4 k0_hw5 k0_hw6 k0_hw7 k0_hw8 arg7.view.junk)
          (kernelRun0_A.sl.v227 c i arg6 xt0 fh0 k0_hw1 k0_hw2 k0_hw3 k0_hw4 k0_hw5 k0_hw6 k0_hw7 k0_hw8 arg6.view.junk) := by
  unfold out0_A_1
  rw [View.read_writes_eq_canon _ _ _ (cover0_A_1 c i arg2 harg2 arg5 harg5 arg6 harg6 arg7 harg7 x0 xt0 fh0 fh1 k0_hw1 k0_hw2 k0_hw3 k0_hw4 k0_hw5 k0_hw6 k0_hw7 k0_hw8)]
  unfold kernelRun0_A
  dsimp only
  rw [View.canon_unit_zero hz, input_eq]

/-! ## The rows by the table's words -/

/-- Under the range hypothesis on the table's words, row `j` of the mask scratch is the mask table's row the word at
    position `8 n + j` names. -/
theorem maskSel (c : Dev nD) (i : grid0.Coords) (xt0 : TbBuf0 (F := F) c tbM0_0) (fh1 : HbBuf0 (F := F) c hbM0_1)
    (k0_hw1 : k0_chk1 (tbM0_0.view.readAt (Elt F) (Rect.unit (s := S64) (k0_off1 i) S1.size (k0_off1_inb i)).toLoadRect xt0 (Shape.Idx.first (numel1_S1.symm ▸ Nat.one_pos))))
    (k0_hw2 : k0_chk2 (tbM0_0.view.readAt (Elt F) (Rect.unit (s := S64) (k0_off3 i) S1.size (k0_off3_inb i)).toLoadRect xt0 (Shape.Idx.first (numel1_S1.symm ▸ Nat.one_pos))))
    (k0_hw3 : k0_chk3 (tbM0_0.view.readAt (Elt F) (Rect.unit (s := S64) (k0_off5 i) S1.size (k0_off5_inb i)).toLoadRect xt0 (Shape.Idx.first (numel1_S1.symm ▸ Nat.one_pos))))
    (k0_hw4 : k0_chk4 (tbM0_0.view.readAt (Elt F) (Rect.unit (s := S64) (k0_off7 i) S1.size (k0_off7_inb i)).toLoadRect xt0 (Shape.Idx.first (numel1_S1.symm ▸ Nat.one_pos))))
    (k0_hw5 : k0_chk5 (tbM0_0.view.readAt (Elt F) (Rect.unit (s := S64) (k0_off9 i) S1.size (k0_off9_inb i)).toLoadRect xt0 (Shape.Idx.first (numel1_S1.symm ▸ Nat.one_pos))))
    (k0_hw6 : k0_chk6 (tbM0_0.view.readAt (Elt F) (Rect.unit (s := S64) (k0_off11 i) S1.size (k0_off11_inb i)).toLoadRect xt0 (Shape.Idx.first (numel1_S1.symm ▸ Nat.one_pos))))
    (k0_hw7 : k0_chk7 (tbM0_0.view.readAt (Elt F) (Rect.unit (s := S64) (k0_off13 i) S1.size (k0_off13_inb i)).toLoadRect xt0 (Shape.Idx.first (numel1_S1.symm ▸ Nat.one_pos))))
    (k0_hw8 : k0_chk8 (tbM0_0.view.readAt (Elt F) (Rect.unit (s := S64) (k0_off15 i) S1.size (k0_off15_inb i)).toLoadRect xt0 (Shape.Idx.first (numel1_S1.symm ▸ Nat.one_pos))))
    (hx : ∀ b : Fin 64, (xt0 (ix1 b) : BitVec 32).toNat < 256) (j : Fin 8) (p q : Fin 32) (r : Fin 128) :
    RowStack.sel8 (kernelRun0_A.sl.dma1_1 c i xt0 fh1 k0_hw1) (kernelRun0_A.sl.dma2_1 c i xt0 fh1 k0_hw2) (kernelRun0_A.sl.dma3_1 c i xt0 fh1 k0_hw3) (kernelRun0_A.sl.dma4_1 c i xt0 fh1 k0_hw4) (kernelRun0_A.sl.dma5_1 c i xt0 fh1 k0_hw5) (kernelRun0_A.sl.dma6_1 c i xt0 fh1 k0_hw6) (kernelRun0_A.sl.dma7_1 c i xt0 fh1 k0_hw7) (kernelRun0_A.sl.dma8_1 c i xt0 fh1 k0_hw8) j (ix3 p q r)
      = fh1 (ix4 (⟨(xt0 (ix1 (pos i j)) : BitVec 32).toNat, hx _⟩ : Fin 256) p q r) :=
  match j with
  | ⟨0, _⟩ => maskRow0 c i xt0 fh1 k0_hw1 (hx _) p q r
  | ⟨1, _⟩ => maskRow1 c i xt0 fh1 k0_hw2 (hx _) p q r
  | ⟨2, _⟩ => maskRow2 c i xt0 fh1 k0_hw3 (hx _) p q r
  | ⟨3, _⟩ => maskRow3 c i xt0 fh1 k0_hw4 (hx _) p q r
  | ⟨4, _⟩ => maskRow4 c i xt0 fh1 k0_hw5 (hx _) p q r
  | ⟨5, _⟩ => maskRow5 c i xt0 fh1 k0_hw6 (hx _) p q r
  | ⟨6, _⟩ => maskRow6 c i xt0 fh1 k0_hw7 (hx _) p q r
  | ⟨7, _⟩ => maskRow7 c i xt0 fh1 k0_hw8 (hx _) p q r

/-- The site scratch likewise. -/
theorem siteSel (c : Dev nD) (i : grid0.Coords) (xt0 : TbBuf0 (F := F) c tbM0_0) (fh0 : HbBuf0 (F := F) c hbM0_0)
    (k0_hw1 : k0_chk1 (tbM0_0.view.readAt (Elt F) (Rect.unit (s := S64) (k0_off1 i) S1.size (k0_off1_inb i)).toLoadRect xt0 (Shape.Idx.first (numel1_S1.symm ▸ Nat.one_pos))))
    (k0_hw2 : k0_chk2 (tbM0_0.view.readAt (Elt F) (Rect.unit (s := S64) (k0_off3 i) S1.size (k0_off3_inb i)).toLoadRect xt0 (Shape.Idx.first (numel1_S1.symm ▸ Nat.one_pos))))
    (k0_hw3 : k0_chk3 (tbM0_0.view.readAt (Elt F) (Rect.unit (s := S64) (k0_off5 i) S1.size (k0_off5_inb i)).toLoadRect xt0 (Shape.Idx.first (numel1_S1.symm ▸ Nat.one_pos))))
    (k0_hw4 : k0_chk4 (tbM0_0.view.readAt (Elt F) (Rect.unit (s := S64) (k0_off7 i) S1.size (k0_off7_inb i)).toLoadRect xt0 (Shape.Idx.first (numel1_S1.symm ▸ Nat.one_pos))))
    (k0_hw5 : k0_chk5 (tbM0_0.view.readAt (Elt F) (Rect.unit (s := S64) (k0_off9 i) S1.size (k0_off9_inb i)).toLoadRect xt0 (Shape.Idx.first (numel1_S1.symm ▸ Nat.one_pos))))
    (k0_hw6 : k0_chk6 (tbM0_0.view.readAt (Elt F) (Rect.unit (s := S64) (k0_off11 i) S1.size (k0_off11_inb i)).toLoadRect xt0 (Shape.Idx.first (numel1_S1.symm ▸ Nat.one_pos))))
    (k0_hw7 : k0_chk7 (tbM0_0.view.readAt (Elt F) (Rect.unit (s := S64) (k0_off13 i) S1.size (k0_off13_inb i)).toLoadRect xt0 (Shape.Idx.first (numel1_S1.symm ▸ Nat.one_pos))))
    (k0_hw8 : k0_chk8 (tbM0_0.view.readAt (Elt F) (Rect.unit (s := S64) (k0_off15 i) S1.size (k0_off15_inb i)).toLoadRect xt0 (Shape.Idx.first (numel1_S1.symm ▸ Nat.one_pos))))
    (hx : ∀ b : Fin 64, (xt0 (ix1 b) : BitVec 32).toNat < 256) (j : Fin 8) (p q : Fin 32) (r : Fin 128) :
    RowStack.sel8 (kernelRun0_A.sl.dma1 c i xt0 fh0 k0_hw1) (kernelRun0_A.sl.dma2 c i xt0 fh0 k0_hw2) (kernelRun0_A.sl.dma3 c i xt0 fh0 k0_hw3) (kernelRun0_A.sl.dma4 c i xt0 fh0 k0_hw4) (kernelRun0_A.sl.dma5 c i xt0 fh0 k0_hw5) (kernelRun0_A.sl.dma6 c i xt0 fh0 k0_hw6) (kernelRun0_A.sl.dma7 c i xt0 fh0 k0_hw7) (kernelRun0_A.sl.dma8 c i xt0 fh0 k0_hw8) j (ix3 p q r)
      = fh0 (ix4 (⟨(xt0 (ix1 (pos i j)) : BitVec 32).toNat, hx _⟩ : Fin 256) p q r) :=
  match j with
  | ⟨0, _⟩ => siteRow0 c i xt0 fh0 k0_hw1 (hx _) p q r
  | ⟨1, _⟩ => siteRow1 c i xt0 fh0 k0_hw2 (hx _) p q r
  | ⟨2, _⟩ => siteRow2 c i xt0 fh0 k0_hw3 (hx _) p q r
  | ⟨3, _⟩ => siteRow3 c i xt0 fh0 k0_hw4 (hx _) p q r
  | ⟨4, _⟩ => siteRow4 c i xt0 fh0 k0_hw5 (hx _) p q r
  | ⟨5, _⟩ => siteRow5 c i xt0 fh0 k0_hw6 (hx _) p q r
  | ⟨6, _⟩ => siteRow6 c i xt0 fh0 k0_hw7 (hx _) p q r
  | ⟨7, _⟩ => siteRow7 c i xt0 fh0 k0_hw8 (hx _) p q r

/-! ## The input block and the grid -/

/-- Grid point `t`'s one coordinate is `t`, and its input block starts at block row `t`. -/
theorem grid_facts : ∀ t : Fin grid0.N, ((grid0.coords t) 0).val = t.val
    ∧ cc0_transform_0 (grid0.coords t) 0 = t.val ∧ cc0_transform_0 (grid0.coords t) 1 = 0
    ∧ cc0_transform_0 (grid0.coords t) 2 = 0 ∧ cc0_transform_0 (grid0.coords t) 3 = 0 := by decide +kernel

variable (m : (ℓ : Loc nD τ sig) → Buf (Elt F) ℓ)

/-- A grid point's number is below 8. -/
theorem t_lt (hO : Gen.Ok m) (t : Fin (cfgM m hO).N) : t.val < 8 := t.isLt

/-- The batch row of block row `j` at grid point `t`. -/
theorem brow_lt (hO : Gen.Ok m) (t : Fin (cfgM m hO).N) (j : Fin 8) : 8 * t.val + j.val < 64 := by
  have := t_lt m hO t; omega

/-- The input block at grid point `t`, at its literal type. -/
abbrev xblk (hO : Gen.Ok m) (c : Dev nD) (t : Fin (cfgM m hO).N) : Vec F S8x32x32x128 .f32 := iblk m hO c 0 t

/-- The input block at `(j, p, q, r)` is the input array at batch row `8 t + j`. -/
theorem xblk_apply (hO : Gen.Ok m) (c : Dev nD) (t : Fin (cfgM m hO).N) (j : Fin 8) (p q : Fin 32) (r : Fin 128) :
    xblk m hO c t (ix4 j p q r) = V m c main_arg0 (ix4 (⟨8 * t.val + j.val, brow_lt m hO t j⟩ : Fin 64) p q r) := by
  obtain ⟨-, e0, e1, e2, e3⟩ := grid_facts t
  show V m c main_arg0 ((((cfgM m hO).win 0).blk t).view.emb (ix4 j p q r)) = _
  congr 1
  funext a; apply Fin.ext
  match a with
  | ⟨0, _⟩ => show cc0_transform_0 (grid0.coords t) 0 * 8 + 1 * j.val = 8 * t.val + j.val; omega
  | ⟨1, _⟩ => show cc0_transform_0 (grid0.coords t) 1 * 32 + 1 * p.val = p.val; omega
  | ⟨2, _⟩ => show cc0_transform_0 (grid0.coords t) 2 * 32 + 1 * q.val = q.val; omega
  | ⟨3, _⟩ => show cc0_transform_0 (grid0.coords t) 3 * 128 + 1 * r.val = r.val; omega

/-- The table position of row `j` at grid point `t` is `8 t + j`. -/
theorem pos_coords (hO : Gen.Ok m) (t : Fin (cfgM m hO).N) (j : Fin 8) :
    pos (grid0.coords t) j = ⟨8 * t.val + j.val, brow_lt m hO t j⟩ := by
  obtain ⟨e, -⟩ := grid_facts t
  apply Fin.ext
  show ((grid0.coords t) 0).val * 8 + j.val = 8 * t.val + j.val
  omega

/-! ## The block at an index, over the extended reals -/

/-- The store's payload at an index: the product and the sum of the extended reals. -/
theorem pay_apply (x a b : Vec Ideal S8x32x32x128 .f32) (y : S8x32x32x128.Idx) :
    k0_pay1 (F := Ideal) x a b y = x y * a y + b y := rfl

/-- WHAT GRID POINT `t` LEAVES IN THE OUTPUT BLOCK, at `(j, p, q, r)`: the specification's function of the arrays as the
    region finds them and the table, at batch row `8 t + j`. The input block is the input array's rows `8 t … 8 t + 7`;
    each scratch buffer's row `j` is the table row the word at position `8 t + j` names, whatever the scratch held before. -/
theorem block_apply (m : (ℓ : Loc nD τ sig) → Buf (Elt Ideal) ℓ) (hO : Gen.Ok m) (hH : Gen.Hyps m hO) (c : Dev nD)
    (t : Fin (cfgM m hO).N) (j : Fin 8) (p q : Fin 32) (r : Fin 128) :
    GenP.outsAt0 (F := Ideal) m hO hH c t (ix4 j p q r)
      = Cert.Spec.G (V m c main_arg0) (V m c main_arg1) (V m c main_arg2) (Gen.tbl m 0) (Cert.KernelIdeal.HypsAll.tbl_lt m)
          (ix4 ⟨8 * t.val + j.val, brow_lt m hO t j⟩ p q r) := by
  have hx : ∀ b : Fin 64, (tbl m 0 (ix1 b) : BitVec 32).toNat < 256 := Cert.KernelIdeal.HypsAll.tbl_lt m
  have e0 := xblk_apply m hO c t j p q r
  have e1 : kernelRun0_A.sl.v225 c (grid0.coords t) scM0_1 (tbl m 0) (V m c main_arg2) (Hyps.c0 hH c t) (Hyps.c1 hH c t) (Hyps.c2 hH c t) (Hyps.c3 hH c t) (Hyps.c4 hH c t) (Hyps.c5 hH c t) (Hyps.c6 hH c t) (Hyps.c7 hH c t) scM0_1.view.junk (ix4 j p q r)
      = V m c main_arg2 (ix4 (Cert.Spec.row (tbl m 0) (Cert.KernelIdeal.HypsAll.tbl_lt m) ⟨8 * t.val + j.val, brow_lt m hO t j⟩) p q r) :=
    (maskScratch_apply c (grid0.coords t) scM0_1 (tbl m 0) (V m c main_arg2) (Hyps.c0 hH c t) (Hyps.c1 hH c t) (Hyps.c2 hH c t) (Hyps.c3 hH c t) (Hyps.c4 hH c t) (Hyps.c5 hH c t) (Hyps.c6 hH c t) (Hyps.c7 hH c t) scM0_1.view.junk j p q r).trans
      ((maskSel c (grid0.coords t) (tbl m 0) (V m c main_arg2) (Hyps.c0 hH c t) (Hyps.c1 hH c t) (Hyps.c2 hH c t) (Hyps.c3 hH c t) (Hyps.c4 hH c t) (Hyps.c5 hH c t) (Hyps.c6 hH c t) (Hyps.c7 hH c t) hx j p q r).trans
        (congrArg (fun b : Fin 64 => V m c main_arg2 (ix4 (⟨(tbl m 0 (ix1 b) : BitVec 32).toNat, hx b⟩ : Fin 256) p q r)) (pos_coords m hO t j)))
  have e2 : kernelRun0_A.sl.v227 c (grid0.coords t) scM0_0 (tbl m 0) (V m c main_arg1) (Hyps.c0 hH c t) (Hyps.c1 hH c t) (Hyps.c2 hH c t) (Hyps.c3 hH c t) (Hyps.c4 hH c t) (Hyps.c5 hH c t) (Hyps.c6 hH c t) (Hyps.c7 hH c t) scM0_0.view.junk (ix4 j p q r)
      = V m c main_arg1 (ix4 (Cert.Spec.row (tbl m 0) (Cert.KernelIdeal.HypsAll.tbl_lt m) ⟨8 * t.val + j.val, brow_lt m hO t j⟩) p q r) :=
    (siteScratch_apply c (grid0.coords t) scM0_0 (tbl m 0) (V m c main_arg1) (Hyps.c0 hH c t) (Hyps.c1 hH c t) (Hyps.c2 hH c t) (Hyps.c3 hH c t) (Hyps.c4 hH c t) (Hyps.c5 hH c t) (Hyps.c6 hH c t) (Hyps.c7 hH c t) scM0_0.view.junk j p q r).trans
      ((siteSel c (grid0.coords t) (tbl m 0) (V m c main_arg1) (Hyps.c0 hH c t) (Hyps.c1 hH c t) (Hyps.c2 hH c t) (Hyps.c3 hH c t) (Hyps.c4 hH c t) (Hyps.c5 hH c t) (Hyps.c6 hH c t) (Hyps.c7 hH c t) hx j p q r).trans
        (congrArg (fun b : Fin 64 => V m c main_arg1 (ix4 (⟨(tbl m 0 (ix1 b) : BitVec 32).toNat, hx b⟩ : Fin 256) p q r)) (pos_coords m hO t j)))
  refine (congrFun (out_eq (F := Ideal) c (grid0.coords t) (ms0_0 m hO t) (hs0_0 m hO t) (ms0_1 m hO t) (hs0_1 m hO t) scM0_0 (Memref.isWhole_whole _) scM0_1 (Memref.isWhole_whole _) (xblk m hO c t) (tbl m 0) (V m c main_arg1) (V m c main_arg2) (Hyps.c0 hH c t) (Hyps.c1 hH c t) (Hyps.c2 hH c t) (Hyps.c3 hH c t) (Hyps.c4 hH c t) (Hyps.c5 hH c t) (Hyps.c6 hH c t) (Hyps.c7 hH c t)) (ix4 j p q r)).trans ?_
  refine (pay_apply _ _ _ _).trans ?_
  refine Eq.trans ?_ (Cert.Spec.G_apply _ _ _ _ _ _ _ _ _).symm
  rw [e0, e1, e2]

end Cert.KernelIdeal.KVal

end
-- ==== Proof.KernelValue.lean ====
/-
  From blocks to the array, on the idealized kernel.

  The grid has 8 points; point `t` stages batch rows `8 t … 8 t + 7` of the input and writes the same rows of the output,
  whole feature maps. What point `t` writes back is, entry by entry, `Cert.Spec.G` of the arrays the region finds with
  the prefetched table in the index vector's place (KernelBlock.lean). The eight blocks tile the output array, so after the
  run the array IS that function; the arguments are as launched.
-/
import proofs.«401894_j30520037605554_2_alg».proof.Proof.KernelIdealFrame
import proofs.«401894_j30520037605554_2_alg».proof.Proof.KernelBlock
import proofs.«401894_j30520037605554_2_alg».proof.Proof.HypsIdeal
import proofs.«401894_j30520037605554_2_alg».proof.Proof.Spec
import Idealize.ShloMosaic.Lib.Pipeline.Value
import Idealize.ShloMosaic.Lib.ValueIdx

noncomputable section

namespace Cert.KernelIdeal.KVal

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.GenP

variable (m : (ℓ : Loc nD τ sig) → Buf (Elt Ideal) ℓ) (ρ : Dev nD → PrngReg)

/-- The output array the kernel leaves, as one function of the arrays the region finds: at `(b, p, q, r)` the input
    times the mask row the table's word `b` names, plus that site row. -/
abbrev KG (c : Dev nD) : FVec Ideal S64x32x32x128 .f32 :=
  Cert.Spec.G (V m c main_arg0) (V m c main_arg1) (V m c main_arg2) (Gen.tbl m 0) (Cert.KernelIdeal.HypsAll.tbl_lt m)

/-- The output window's index map, decided over the grid: point `t` writes batch rows `8 t … 8 t + 7`, whole feature maps. -/
theorem idx_facts (hO : Gen.Ok m) : ∀ t : Fin (cfgM m hO).N, ((cfgM m hO).win 1).index t = ![t.val, 0, 0, 0] :=
  (by decide +kernel : ∀ t : Fin grid0.N, cc0_transform_3 (grid0.coords t) = ![t.val, 0, 0, 0])

/-- Where the output window's block at point `t` sits in the array. -/
theorem blk_emb (hO : Gen.Ok m) (t : Fin (cfgM m hO).N) (j : Fin 8) (p q : Fin 32) (r : Fin 128) (h8 : 8 * t.val + j.val < 64) :
    (((cfgM m hO).win 1).blk t).view.emb (ix4 j p q r) = ix4 ⟨8 * t.val + j.val, h8⟩ p q r := by
  have e := idx_facts m hO t
  funext a; apply Fin.ext
  match a with
  | ⟨0, _⟩ => show ((cfgM m hO).win 1).index t (0 : Fin 4) * 8 + 1 * j.val = 8 * t.val + j.val; rw [e]; show t.val * 8 + 1 * j.val = _; omega
  | ⟨1, _⟩ => show ((cfgM m hO).win 1).index t (1 : Fin 4) * 32 + 1 * p.val = p.val; rw [e]; show 0 * 32 + 1 * p.val = _; omega
  | ⟨2, _⟩ => show ((cfgM m hO).win 1).index t (2 : Fin 4) * 32 + 1 * q.val = q.val; rw [e]; show 0 * 32 + 1 * q.val = _; omega
  | ⟨3, _⟩ => show ((cfgM m hO).win 1).index t (3 : Fin 4) * 128 + 1 * r.val = r.val; rw [e]; show 0 * 128 + 1 * r.val = _; omega

/-- WHAT POINT `t` WRITES BACK is block `t` of `KG`. -/
theorem flushed_eq (hO : Gen.Ok m) (hH : Gen.Hyps m hO) (c : Dev nD) (t : Fin (cfgM m hO).N) :
    (GenP.dats m hO hH 0 c).flushed 1 t = (((cfgM m hO).win 1).blk t).view.read (Elt Ideal) (KG m c) := by
  show ((cfgM m hO).win 1).cut (grid0.coords t) ((GenP.dats m hO hH 0 c).after 1 t) = _
  rw [GenP.after0_1]
  refine funext fun (y : S8x32x32x128.Idx) => ?_
  obtain ⟨j, p, q, r, rfl⟩ : ∃ (j : Fin 8) (p q : Fin 32) (r : Fin 128), y = ix4 j p q r := ⟨y 0, y 1, y 2, y 3, eq_ix4 y⟩
  show GenP.outsAt0 m hO hH c t (ix4 j p q r) = KG m c ((((cfgM m hO).win 1).blk t).view.emb (ix4 j p q r))
  rw [blk_emb m hO t j p q r (brow_lt m hO t j)]
  exact block_apply m hO hH c t j p q r

/-- Every index of the output array is in some point's block: row `b` is row `b % 8` of point `b / 8`'s block. -/
theorem cover (hO : Gen.Ok m) (i : S64x32x32x128.Idx) :
    ∃ t : Fin (cfgM m hO).N, ((cfgM m hO).win 1).flush t = true ∧ i ∈ (((cfgM m hO).win 1).blk t).view.set := by
  have hi0 : (i 0).val < 64 := (i 0).isLt
  have ht : (i 0).val / 8 < (cfgM m hO).N := by show (i 0).val / 8 < 8; omega
  refine ⟨⟨(i 0).val / 8, ht⟩, flush0_1 (adm m hO) _, ?_⟩
  have h64 : 8 * ((i 0).val / 8) + (i 0).val % 8 < 64 := by omega
  refine Finset.mem_map.mpr ⟨ix4 ⟨(i 0).val % 8, Nat.mod_lt _ (by decide)⟩ (i 1) (i 2) (i 3), Finset.mem_univ _,
    (blk_emb m hO ⟨(i 0).val / 8, ht⟩ ⟨(i 0).val % 8, Nat.mod_lt _ (by decide)⟩ (i 1) (i 2) (i 3) h64).trans ?_⟩
  funext a; apply Fin.ext
  match a with
  | ⟨0, _⟩ => show 8 * ((i 0).val / 8) + (i 0).val % 8 = (i 0).val; omega
  | ⟨1, _⟩ => rfl
  | ⟨2, _⟩ => rfl
  | ⟨3, _⟩ => rfl

/-- THE ARRAY after the run is `KG`. -/
theorem final (hO : Gen.Ok m) (hH : Gen.Hyps m hO) (c : Dev nD) : (GenP.dats m hO hH 0 c).arrAt 1 (cfgM m hO).N = KG m c :=
  (GenP.dats m hO hH 0 c).arrAt_eq_of_cover 1 (KG m c) (fun t _ => flushed_eq m hO hH c t) (cover m hO)

/-- The frame run re-posted: the output array at `KG`, the arguments unchanged. -/
theorem run (hO : Gen.Ok m) (hH : Gen.Hyps m hO) :
    θ_run defs (onTc (τ := τ) (main (F := Ideal))) ⟨m, fun _ => 0, ρ⟩ fun r => ∀ c : Dev nD,
      r.2.mem ((c.tc : Thread nD τ).loc main_v0) = KG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 1).trans (final m hO hH c),
      ((h c).1 0).trans (((GenP.dats m hO hH 0 c).arrAt_in 0 rfl _).trans ((GenP.A_eq m hO hH c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c)⟩)
    (GenP.run_main m ρ hO hH)

end Cert.KernelIdeal.KVal

end
-- ==== Proof.lean ====
/-
  The certificate's claims.

  The kernel clips each index word into [0, 255] on the host, fetches for batch row `b` the rows of the two tables that the
  clipped word names by one copy each into two scratch buffers (all sixteen copies of a grid point in flight at once, each
  on its own semaphore, every copy waited for before the scratch is read), and leaves `x · mask_row + site_row`. The
  reference takes the rows with `jnp.take`, which wraps a negative index and fills an out-of-range one with a NaN. The two
  agree exactly where every index word is already in [0, 255]: the stated domain (the tables have 256 rows). There the
  clipped word is the word, the reference's wrap and fill do nothing, its gather's own clamp does nothing, and both results
  are `Cert.Spec.G` of the argument arrays, index by index on the extended reals; no law of arithmetic is used, so the
  finiteness of the float inputs is never opened.

  The frames hold for every memory: the side conditions the kernel body assumes of the table words it loads (each below 256)
  follow from the host's clip, not from the precondition.
-/
import proofs.«401894_j30520037605554_2_alg».proof.Defs
import proofs.«401894_j30520037605554_2_alg».proof.Proof.Gen.Kernel
import proofs.«401894_j30520037605554_2_alg».proof.Proof.Gen.KernelIdeal
import proofs.«401894_j30520037605554_2_alg».proof.Proof.Gen.ReferenceIdeal
import proofs.«401894_j30520037605554_2_alg».proof.Proof.Gen.Pre_finite_inputs
import proofs.«401894_j30520037605554_2_alg».proof.Proof.KernelFrame
import proofs.«401894_j30520037605554_2_alg».proof.Proof.KernelIdealFrame
import proofs.«401894_j30520037605554_2_alg».proof.Proof.HypsBits
import proofs.«401894_j30520037605554_2_alg».proof.Proof.HypsIdeal
import proofs.«401894_j30520037605554_2_alg».proof.Proof.PreRange
import proofs.«401894_j30520037605554_2_alg».proof.Proof.RefRun
import proofs.«401894_j30520037605554_2_alg».proof.Proof.RefValue
import proofs.«401894_j30520037605554_2_alg».proof.Proof.KernelValue
import proofs.«401894_j30520037605554_2_alg».proof.Proof.Spec
import Idealize.ShloMosaic.Adequacy
import Idealize.ShloMosaic.Init

noncomputable section

namespace Cert.Proof

open Idealize.ShloMosaic Idealize.ShloMosaic.TcCoe Idealize.SL.Sem Idealize.ShloMosaic.ValueIdx

/-- `G` depends on the index vector only through its words: equal vectors give equal results, whatever the two range
    proofs are. -/
theorem G_congr (x : FVec Ideal Cert.Spec.SX .f32) (sites masks : FVec Ideal Cert.Spec.ST .f32) {idx idx' : IVec Cert.Spec.SI 32}
    (e : idx = idx') (h : Cert.Spec.InRange idx) (h' : Cert.Spec.InRange idx') :
    Cert.Spec.G x sites masks idx h = Cert.Spec.G x sites masks idx' h' := by
  subst e; rfl

/-- Under the precondition every index word is below 256, on the idealized kernel's memory. -/
theorem inRange (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    Cert.Spec.InRange (m ((c.tc : Thread Cert.KernelIdeal.nD Cert.KernelIdeal.τ).loc Cert.KernelIdeal.main_arg3)) :=
  Cert.PreRange.inRange_of_pre (F := Ideal) _ _ _ _ (hpre c)

/-- With the index words in range the prefetched table is the index vector, so the kernel's output array is `G` of the
    argument arrays as launched. -/
theorem kernel_value (m : (ℓ : Loc Cert.KernelIdeal.nD Cert.KernelIdeal.τ Cert.KernelIdeal.sig) → Buf (Elt Ideal) ℓ)
    (c : Dev Cert.KernelIdeal.nD)
    (h : Cert.Spec.InRange (m ((c.tc : Thread Cert.KernelIdeal.nD Cert.KernelIdeal.τ).loc Cert.KernelIdeal.main_arg3))) :
    Cert.KernelIdeal.KVal.KG m c
      = Cert.Spec.G (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) h := by
  obtain rfl : c = 0 := Subsingleton.elim _ _
  unfold Cert.KernelIdeal.KVal.KG
  rw [Cert.KernelIdeal.Gen.V_main_arg0, Cert.KernelIdeal.Gen.V_main_arg1, Cert.KernelIdeal.Gen.V_main_arg2]
  refine G_congr _ _ _ (funext fun j => ?_) _ h
  rw [eq_ix1 j]
  exact Cert.KernelIdeal.HypsAll.tbl_eq_of_inRange m h _

theorem frame_k : Cert.frame_Kernel (hKernel := Cert.Kernel.Gen.facts) (hPre_finite_inputs := Cert.Pre_finite_inputs.Gen.facts) :=
  fun m ρ _ => Cert.Kernel.GenP.frame m ρ trivial (Cert.Kernel.HypsAll.hyps m trivial)

theorem frame_ki : Cert.frame_KernelIdeal (hKernelIdeal := Cert.KernelIdeal.Gen.facts) (hPre_finite_inputs := Cert.Pre_finite_inputs.Gen.facts) :=
  fun m ρ _ => Cert.KernelIdeal.GenP.frame m ρ trivial (Cert.KernelIdeal.HypsAll.hyps m trivial)

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run (F := Ideal) m ρ)

/-- Both programs end at `G` of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (inRange m hpre c), ?_, ?_⟩
  · exact (θ_run Cert.KernelIdeal.defs _ _).mono (fun _ h c => ⟨(h c).1.trans (kernel_value m c (inRange m hpre c)), (h c).2⟩)
      (Cert.KernelIdeal.KVal.run m ρ trivial (Cert.KernelIdeal.HypsAll.hyps m trivial))
  · refine (θ_run Cert.ReferenceIdeal.defs _ _).mono (fun _ h c => ⟨(h c).1.trans ?_, (h c).2⟩)
      (Cert.ReferenceIdeal.RefRun.run (F := Ideal) m' ρ')
    have hr' : Cert.Spec.InRange (m' ((c.tc : Thread Cert.ReferenceIdeal.nD Cert.ReferenceIdeal.τ).loc Cert.ReferenceIdeal.main_arg3)) := by
      rw [(hagree c).2.2.2]; exact inRange m hpre c
    rw [Cert.ReferenceIdeal.RefValue.result_eq _ _ _ _ hr']
    have e0 := (hagree c).1
    have e1 := (hagree c).2.1
    have e2 := (hagree c).2.2.1
    have e3 := (hagree c).2.2.2
    exact (G_congr _ _ _ e3 hr' (inRange m hpre c)).trans (by rw [e0, e1, e2])

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
